-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S_ : Shape := ⟨0, ![]⟩

class Facts : Prop where
  bcast_S_S1x2048x4096 : S_.BroadcastsInDim S1x2048x4096 (![] : Fin 0 → Fin S1x2048x4096.rank)
  reducesTo_S1x2048x4096_S_d0_1_2 : S1x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_arg4 : FVec F S4096x14336 .f32) (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  let main_v19 : FVec F S4096x14336 .f32 := Host.absf main_arg4
  let main_cst_6 : FVec F S_ .f32 := constant S_ .f32 0x7F800000#32
  let main_v20 : FVec F S4096x14336 .f32 := broadcastInDim S4096x14336 ![] bcast_S_S4096x14336 main_cst_6
  let main_v21 : IVec S4096x14336 1 := cmpf .olt main_v19 main_v20
  let main_c_7 : IVec S_ 1 := constantI S_ 1 1#1
  let main_v22 : IVec S_ 1 := (fun x v => Host.reduce IntOp.andi x v reducesTo_S4096x14336_S_d0_1 h_S_) main_v21 main_c_7
  let main_v23 : IVec S_ 1 := andi main_v18 main_v22
  main_v23

def fn {F : FTy → Type} [FloatOps F] (main_arg0 : FVec F S1x2048x4096 .f32) (main_arg1 : FVec F S4096 .f32) (main_arg2 : FVec F S14336x4096 .f32) (main_arg3 : FVec F S14336x4096 .f32) (main_arg4 : FVec F S4096x14336 .f32) : IVec S_ 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_c : IVec S_ 1 := constantI S_ 1 1#1
  let main_v3 : IVec S_ 1 := (fun x v => Host.reduce IntOp.andi x v reducesTo_S1x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_arg4 main_v13 main_v16
-- ==== Kernel.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S2048x4096 : Shape := ⟨2, ![2048, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 13
  | .vmem => 16
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S2048x4096, .f32⟩
  | .hbm, ⟨6, _⟩ => ⟨S1x4096, .f32⟩
  | .hbm, ⟨7, _⟩ => ⟨S2048x4096, .bf16⟩
  | .hbm, ⟨8, _⟩ => ⟨S14336x4096, .bf16⟩
  | .hbm, ⟨9, _⟩ => ⟨S14336x4096, .bf16⟩
  | .hbm, ⟨10, _⟩ => ⟨S4096x14336, .bf16⟩
  | .hbm, ⟨11, _⟩ => ⟨S2048x4096, .f32⟩
  | .hbm, ⟨12, _⟩ => ⟨S1x2048x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S4096x256, .bf16⟩
  | .local _ .vmem, ⟨12, _⟩ => ⟨S4096x256, .bf16⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 56], ![false, false]⟩

def k1_cond2 (i : grid1.Coords) : BitVec 1 :=
  let arg1 : BitVec 32 := BitVec.ofNat 32 (i 1).val
  let c55_i32 : BitVec 32 := 55#32
  let v23 : BitVec 1 := Scalar.cmpi .eq arg1 c55_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x2048x4096_S2048x4096 : S1x2048x4096.ShapeCasts S2048x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S2048x4096_S1x2048x4096 : S2048x4096.ShapeCasts S1x2048x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2048x4096.size a
  hwx0_2 : ∀ i : grid0.Coords, EltTy.bits .bf16 = 32 ∨ (Rect.block (s := S2048x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S2048x4096.size a
  hwx1_0 : ∀ i : grid1.Coords, EltTy.bits .bf16 = 32 ∨ (Rect.block (s := S2048x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S14336x4096.size a
  hwx1_1 : ∀ i : grid1.Coords, EltTy.bits .bf16 = 32 ∨ (Rect.block (s := S14336x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S14336x4096.size a
  hwx1_2 : ∀ i : grid1.Coords, EltTy.bits .bf16 = 32 ∨ (Rect.block (s := S14336x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x14336.size a
  hwx1_3 : ∀ i : grid1.Coords, EltTy.bits .bf16 = 32 ∨ (Rect.block (s := S4096x14336) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S2048x4096.size a
  hwx1_4 : ∀ i : grid1.Coords, EltTy.bits .f32 = 32 ∨ (Rect.block (s := S2048x4096) S256x4096.size (cc1_transform_4 i) (hinb1_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S1x2048x14336 : Shape := ⟨3, ![1, 2048, 14336]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S1x2048x4096, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x4096, .f32⟩
  | .hbm, ⟨17, _⟩ => ⟨S1x2048x4096, .f32⟩
  | .hbm, ⟨18, _⟩ => ⟨S1x1x4096, .f32⟩
  | .hbm, ⟨19, _⟩ => ⟨S1x2048x4096, .f32⟩
  | .hbm, ⟨20, _⟩ => ⟨S1x2048x4096, .f32⟩
  | .hbm, ⟨21, _⟩ => ⟨S1x2048x14336, .f32⟩
  | .hbm, ⟨22, _⟩ => ⟨S1x2048x14336, .f32⟩
  | .hbm, ⟨23, _⟩ => ⟨S1x2048x14336, .f32⟩
  | .hbm, ⟨24, _⟩ => ⟨S1x2048x14336, .f32⟩
  | .hbm, ⟨25, _⟩ => ⟨S_, .f32⟩
  | .hbm, ⟨26, _⟩ => ⟨S1x2048x14336, .f32⟩
  | .hbm, ⟨27, _⟩ => ⟨S1x2048x14336, .f32⟩
  | .hbm, ⟨28, _⟩ => ⟨S_, .f32⟩
  | .hbm, ⟨29, _⟩ => ⟨S1x2048x14336, .f32⟩
  | .hbm, ⟨30, _⟩ => ⟨S1x2048x14336, .f32⟩
  | .hbm, ⟨31, _⟩ => ⟨S1x2048x14336, .f32⟩
  | .hbm, ⟨32, _⟩ => ⟨S1x2048x14336, .f32⟩
  | .hbm, ⟨33, _⟩ => ⟨S1x2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  reducesTo_S1x2048x4096_S1x2048_d2 : S1x2048x4096.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x4096_0_1_2 : S1x2048x1.BroadcastsInDim S1x2048x4096 (![0, 1, 2] : Fin 3 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  bcast_S_S1x2048x14336 : S_.BroadcastsInDim S1x2048x14336 (![] : Fin 0 → Fin S1x2048x14336.rank)
  dot_S1x2048x4096_S14336x4096_S1x2048x14336_2_1_01_0_n_n_wf : DotDims.WF S1x2048x4096 S14336x4096 S1x2048x14336 [2] [1] [0, 1] [0] [] []
  dot_S1x2048x14336_S4096x14336_S1x2048x4096_2_1_01_0_n_n_wf : DotDims.WF S1x2048x14336 S4096x14336 S1x2048x4096 [2] [1] [0, 1] [0] [] []

variable [Facts₀]

def dot_S1x2048x4096_S14336x4096_S1x2048x14336_2_1_01_0_n_n : DotDims S1x2048x4096 S14336x4096 S1x2048x14336 where
  lhsContracting := [2]
  rhsContracting := [1]
  lhsNonContracting := [0, 1]
  rhsNonContracting := [0]
  lhsBatch := []
  rhsBatch := []
  wf := dot_S1x2048x4096_S14336x4096_S1x2048x14336_2_1_01_0_n_n_wf
def dot_S1x2048x14336_S4096x14336_S1x2048x4096_2_1_01_0_n_n : DotDims S1x2048x14336 S4096x14336 S1x2048x4096 where
  lhsContracting := [2]
  rhsContracting := [1]
  lhsNonContracting := [0, 1]
  rhsNonContracting := [0]
  lhsBatch := []
  rhsBatch := []
  wf := dot_S1x2048x14336_S4096x14336_S1x2048x4096_2_1_01_0_n_n_wf

class Facts : Prop extends Facts₀ where

variable [Facts]
-- ==== Proof.Kernel.NormRegion.lean ====
/-
  The first pallas_call (row normalisation) as one pipeline region, at a parameter `V`: the contents of the
  TensorCore's unscoped buffers when the region is entered.

  The grid has 4 points; point `t` stages rows 512·t … 512·t+511 of the 2048 × 4096 input (window 0), the whole
  1 × 4096 weight row (window 1, staged once and not moved afterwards) and writes back the same rows of the
  2048 × 4096 output (window 2). The body loads both input blocks whole and stores ONE whole block: the body's pure
  term of the two loads. So after the body the output's staging buffer holds that term of the two input blocks, the
  input buffers are as they were, and nothing else of the core is touched: the region's invariant is the constant
  "scoped rest and generator register at some state".
-/
import proofs.«120742_j45956150067864_1_alg».proof.Proof.Gen.Kernel.Launch
import proofs.«120742_j45956150067864_1_alg».proof.Proof.Gen.Kernel.Skeleton
import proofs.«120742_j45956150067864_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def nblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, for any proof data over `V` that leaves it in place. -/
theorem nbefore_rows_of {c : Dev nD} (dat : Dat τ (Elt F) Unit ℕ (UR sig nD τ) ℕ cfg0 c) (hA : dat.A 0 = V c (Pipeline.arrRef spec0 0))
    (hafter : ∀ t, dat.after 0 t = nblk V c 0 t) (t : Fin cfg0.N) (d) : dat.before 0 t d = nblk V c 0 t :=
  (dat.before_in_eq_fetched 0 rfl (fun _ => rfl) (fun _ _ _ => rfl) (fun t => by rw [hafter]; unfold Dat.blockOf nblk; rw [hA]; try rfl) t d).trans
    (by unfold Dat.fetched Dat.blockOf nblk; rw [hA]; try rfl)

/-- The weight row's staging buffer holds the weight row at every point: staged at the first, its index never moves. -/
theorem nbefore_weight_of {c : Dev nD} (dat : Dat τ (Elt F) Unit ℕ (UR sig nD τ) ℕ cfg0 c) (hA : dat.A 1 = V c (Pipeline.arrRef spec0 1))
    (hafter : ∀ t, dat.after 1 t = nblk V c 1 t) (t : Fin cfg0.N) (d) : dat.before 1 t d = nblk V c 1 t :=
  (dat.before_in_eq_fetched 1 rfl (fun _ => rfl) (fun _ _ _ => rfl) (fun t => by rw [hafter]; unfold Dat.blockOf nblk; rw [hA]; try rfl) t d).trans
    (by unfold Dat.fetched Dat.blockOf nblk; rw [hA]; try rfl)

/-! ## The body's accesses and what it leaves -/

/-- The whole 512 × 4096 block (the rows' load and the output's store). -/
abbrev nrRows : Rect S512x4096 := Rect.unit (s := S512x4096) ![0, 0] S512x4096.size inb_S512x4096_S512x4096_0_0
/-- The whole 1 × 4096 block (the weight row's load). -/
abbrev nrWeight : Rect S1x4096 := Rect.unit (s := S1x4096) ![0, 0] S1x4096.size inb_S1x4096_S1x4096_0_0

/-- The output's staging buffer after the body: its one store, of the body's pure term of the two loads. -/
def nout (x0 : Vec F S512x4096 .f32) (x1 : Vec F S1x4096 .f32) : Vec F S512x4096 .bf16 :=
  View.canon [⟨nrRows, k0_pay1 (View.ld x0 nrRows) (View.ld x1 nrWeight)⟩]

/-- The one store covers the buffer. -/
theorem ncover (p0 : Vec F S512x4096 .bf16) (y : S512x4096.Idx) :
    ∃ pc ∈ ([⟨nrRows, p0⟩] : List (View.Piece (Elt F) S512x4096 .bf16)), y ∈ pc.1.set :=
  View.cover_of_tiled [⟨nrRows, p0⟩] S512x4096.size (by rfl) y

/-! ## The body's triple -/

set_option maxHeartbeats 1000000 in
/-- On whole staging memrefs, the inputs' at `x0`, `x1` and the output's at anything, the body runs to the continuation
    with the inputs' as they were and the output's at `nout x0 x1`. -/
theorem nsound_kernel (c : Dev nD) (E : Set ℕ) (i : grid0.Coords) (arg1 : Memref sig .tc .vmem S512x4096 .f32) (harg1 : arg1.IsWhole)
    (arg2 : Memref sig .tc .vmem S1x4096 .f32) (harg2 : arg2.IsWhole) (arg3 : Memref sig .tc .vmem S512x4096 .bf16) (harg3 : arg3.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (nout x0 x1)) -∗ K ⟨⟩))
      ⊢ wp frame (wpE (defs₀ (F := F)) Variants.none c none) E (cc0_rmsnorm_kernel i arg1 harg1 arg2 harg2 arg3 harg3) K := by
  simp only [cc0_rmsnorm_kernel_eq_skeleton]; unfold cc0_rmsnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (ncover _)

/-! ## The proof data -/

/-- The region's proof data on core `c`: the arrays as the region finds them; after the body at point `t` each input's
    buffer at its block and the output's at `nout` of the two blocks; the constant invariant; nothing owed; full shares. -/
def ndat (c : Dev nD) : Dat τ (Elt F) Unit ℕ (UR sig nD τ) ℕ cfg0 c where
  A w := V c (Pipeline.arrRef spec0 w)
  after w t := match w with
    | ⟨0, _⟩ => nblk V c 0 t
    | ⟨1, _⟩ => nblk V c 1 t
    | ⟨2, _⟩ => nout (nblk V c 0 t) (nblk V c 1 t)
  Φ _ := Pipeline.ΦA spec0 c
  q _ := fullShare
  owed _ := 0

theorem nA_eq (c : Dev nD) (w : Fin cfg0.W) : (ndat V c).A w = V c (Pipeline.arrRef spec0 w) := by
  dsimp only [ndat]

theorem nafter_rows (c : Dev nD) (t : Fin cfg0.N) : (ndat V c).after 0 t = nblk V c 0 t := by dsimp only [ndat]
theorem nafter_weight (c : Dev nD) (t : Fin cfg0.N) : (ndat V c).after 1 t = nblk V c 1 t := by dsimp only [ndat]
theorem nafter_out (c : Dev nD) (t : Fin cfg0.N) : (ndat V c).after 2 t = nout (nblk V c 0 t) (nblk V c 1 t) := by dsimp only [ndat]

theorem nbefore_rows (c : Dev nD) (t : Fin cfg0.N) (d) : (ndat V c).before 0 t d = nblk V c 0 t :=
  nbefore_rows_of V (ndat V c) (nA_eq V c 0) (nafter_rows V c) t d
theorem nbefore_weight (c : Dev nD) (t : Fin cfg0.N) (d) : (ndat V c).before 1 t d = nblk V c 1 t :=
  nbefore_weight_of V (ndat V c) (nA_eq V c 1) (nafter_weight V c) t d

/-! ## The body obligation -/

/-- What the body is called with at point `t`, the windows one by one, -/
def nbodyPre (c : Dev nD) (t : Fin cfg0.N) : sProp 𝕄 :=
  iprop((ndat V c).Φ t.castSucc ∗ (ndat V c).owesAt () t.castSucc
    ∗ (∃ d, owns (c : Thread nD τ) (st0_0 t) fullShare ((ndat V c).before 0 t d))
    ∗ (∃ d, owns (c : Thread nD τ) (st0_1 t) fullShare ((ndat V c).before 1 t d))
    ∗ (∃ d, owns (c : Thread nD τ) (st0_2 t) fullShare ((ndat V c).before 2 t d)))

/-- and what it returns. -/
def nbodyPost (c : Dev nD) (t : Fin cfg0.N) : sProp 𝕄 :=
  iprop((ndat V c).Φ t.succ ∗ (ndat V c).owesAt () t.succ
    ∗ owns (c : Thread nD τ) (st0_0 t) fullShare ((ndat V c).after 0 t)
    ∗ owns (c : Thread nD τ) (st0_1 t) fullShare ((ndat V c).after 1 t)
    ∗ owns (c : Thread nD τ) (st0_2 t) fullShare ((ndat V c).after 2 t))

/-- The body at any point: the inputs' memrefs hold their blocks, so the triple applies; the invariant and the core's
    dues pass through unread. -/
theorem nsound_body (c : Dev nD) (t : Fin cfg0.N) :
    nbodyPre V c t ⊢ wp frame (wpE (defs₀ (F := F)) Variants.none c none) Set.univ (bodyAt0 t) (fun _ => nbodyPost V c t) := by
  unfold nbodyPre nbodyPost bodyAt0
  simp only [nbefore_rows, nbefore_weight]
  rw [show (ndat V c).Φ t.succ = (ndat V c).Φ t.castSucc from rfl,
    show (ndat V c).owesAt () t.succ = (ndat V c).owesAt () t.castSucc from rfl,
    nafter_rows, nafter_weight, nafter_out]
  iintro ⟨HΦ, Ho, ⟨%d0, H0⟩, ⟨%d1, H1⟩, ⟨%d2, H2⟩⟩
  iapply (nsound_kernel c Set.univ _ _ _ _ _ _ _ (nblk V c 0 t) (nblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem nbody_obligation (c : Dev nD) : BodyObligation (ndat (F := F) V c) (defs₀ (F := F)) Variants.none () Set.univ := fun t => by
  rw [bigSep_W0, bigSep_W0]
  exact nsound_body V c t

end Cert.Kernel.Frame

end
-- ==== Proof.Kernel.MlpShared.lean ====
/-
  The second pallas_call (the gated projection with its reduction over the inner axis) as one pipeline region:
  what its three control cases share, at a parameter `V` — the unscoped buffers' contents when the region is entered.

  The grid is 8 × 56 = 448 points, point `t` = (row block s, inner block j) with j = t mod 56. The body keeps a running
  sum in a scratch buffer: at j = 0 it first stores zeros there; at every point it adds the point's partial product;
  at j = 55 it copies the scratch to the output's staging buffer, which the pipeline writes back only there and leaves
  idle elsewhere. So a point is in one of three cases: j = 0 (first), 0 < j < 55 (middle), j = 55 (last).
-/
import proofs.«120742_j45956150067864_1_alg».proof.Proof.Gen.Kernel.Launch
import proofs.«120742_j45956150067864_1_alg».proof.Proof.Gen.Kernel.Skeleton
import proofs.«120742_j45956150067864_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalised rows' staging buffer holds row block s at every point of that row block: staged at j = 0, its index does not move along j. -/
theorem mbefore0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-- The gate weights' staging buffer holds inner block j of them, staged at every point. -/
theorem mbefore1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)

/-- The up weights' staging buffer holds inner block j of them, staged at every point. -/
theorem mbefore2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-- The down weights' staging buffer holds column block j of them, staged at every point. -/
theorem mbefore3_of {c : Dev nD} (dat : Dat τ (Elt F) Unit ℕ (UR sig nD τ) ℕ cfg1 c) (hA : dat.A 3 = V c (Pipeline.arrRef spec1 3))
    (hafter : ∀ t, dat.after 3 t = mblk V c 3 t) (t : Fin cfg1.N) (d) : dat.before 3 t d = mblk V c 3 t :=
  (dat.before_in_eq_fetched 3 rfl (fun _ => rfl) (fun _ _ _ => rfl) (fun t => by rw [hafter]; unfold Dat.blockOf mblk; rw [hA]; try rfl) t d).trans
    (by unfold Dat.fetched Dat.blockOf mblk; rw [hA]; try rfl)

/-! ## The body's two branch conditions, in closed form over the grid -/

/-- The condition under which the body zeroes the running sum (the scalar chain of its first branch, substituted). -/
abbrev mcondFirst (i : grid1.Coords) : Prop := (Scalar.cmpi .ne (Scalar.extui (Scalar.cmpi .eq (BitVec.ofNat 32 (i 1).val) 0#32)) 0#32) = 1#1
/-- It holds exactly at the points with j = 0. -/
theorem hcondFirst : ∀ t : Fin cfg1.N, mcondFirst (grid1.coords t) ↔ t.val % 56 = 0 :=
  (by decide +kernel : ∀ t : Fin grid1.N, mcondFirst (grid1.coords t) ↔ t.val % 56 = 0)

/-- The condition under which the body copies the running sum out. -/
abbrev mcondLast (i : grid1.Coords) : Prop := k1_cond2 i = 1#1
/-- It holds exactly at the points with j = 55. -/
theorem hcondLast : ∀ t : Fin cfg1.N, mcondLast (grid1.coords t) ↔ t.val % 56 = 55 :=
  (by decide +kernel : ∀ t : Fin grid1.N, mcondLast (grid1.coords t) ↔ t.val % 56 = 55)

/-! ## Where the output window is idle -/

theorem mlive0 : ∀ t : Fin cfg1.N, cfg1.idle 0 (grid1.coords t) = false := fun _ => rfl
theorem mlive1 : ∀ t : Fin cfg1.N, cfg1.idle 1 (grid1.coords t) = false := fun _ => rfl
theorem mlive2 : ∀ t : Fin cfg1.N, cfg1.idle 2 (grid1.coords t) = false := fun _ => rfl
theorem mlive3 : ∀ t : Fin cfg1.N, cfg1.idle 3 (grid1.coords t) = false := fun _ => rfl
/-- Where the running sum is not copied out the output window is idle, -/
theorem midle4 : ∀ t : Fin cfg1.N, ¬mcondLast (grid1.coords t) → cfg1.idle 4 (grid1.coords t) = true := by decide +kernel
/-- and is not written back; -/
theorem mnoFlush4 : ∀ t : Fin cfg1.N, ¬mcondLast (grid1.coords t) → (cfg1.win 4).flush t = false := by decide +kernel
/-- where it is, the window is live. -/
theorem mlive4 : ∀ t : Fin cfg1.N, mcondLast (grid1.coords t) → cfg1.idle 4 (grid1.coords t) = false := by decide +kernel

/-! ## The memrefs the body is called with -/

/-- One staging buffer of the output window, through which its contents are stated. -/
abbrev mVO : View sig .tc .vmem S256x4096 .f32 := (Memref.whole cc1_stg4_0 : Memref sig .tc .vmem S256x4096 .f32).view
abbrev mms0 (t : Fin cfg1.N) : Memref sig .tc .vmem S256x4096 .bf16 := win1_0.stage (cfg1.slots t 0)
abbrev mhs0 (t : Fin cfg1.N) : (mms0 t).IsWhole := hstage1_0 ((cfg1.slots t 0).cast nbuf1_0)
abbrev mms1 (t : Fin cfg1.N) : Memref sig .tc .vmem S256x4096 .bf16 := win1_1.stage (cfg1.slots t 1)
abbrev mhs1 (t : Fin cfg1.N) : (mms1 t).IsWhole := hstage1_1 ((cfg1.slots t 1).cast nbuf1_1)
abbrev mms2 (t : Fin cfg1.N) : Memref sig .tc .vmem S256x4096 .bf16 := win1_2.stage (cfg1.slots t 2)
abbrev mhs2 (t : Fin cfg1.N) : (mms2 t).IsWhole := hstage1_2 ((cfg1.slots t 2).cast nbuf1_2)
abbrev mms3 (t : Fin cfg1.N) : Memref sig .tc .vmem S4096x256 .bf16 := win1_3.stage (cfg1.slots t 3)
abbrev mhs3 (t : Fin cfg1.N) : (mms3 t).IsWhole := hstage1_3 ((cfg1.slots t 3).cast nbuf1_3)
abbrev mms4 (t : Fin cfg1.N) : Memref sig .tc .vmem S256x4096 .f32 := win1_4.stage (cfg1.slots t 4)
abbrev mhs4 (t : Fin cfg1.N) : (mms4 t).IsWhole := hstage1_4 ((cfg1.slots t 4).cast nbuf1_4)
/-- The running sum's buffer: a whole scoped buffer of the kernel's own, passed beside the windows. -/
abbrev mscM : Memref sig .tc .vmem S256x4096 .f32 := Memref.whole cc1_scratch0
/-- The same as a view: what it holds is stated through it. -/
abbrev mVS : View sig .tc .vmem S256x4096 .f32 := mscM.view

/-! ## The scoped rest of the core around the running sum -/

/-- The core's scoped buffers that no window of this region stages — the first region's five staging buffers, each whole
    at some contents — around a slot `X` for the running sum's buffer. -/
def mscoped (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

/-- The constant invariant (scoped rest and generator register at some state) with the running sum's buffer as a memref
    owned at some contents. -/
theorem mPhiA_eq (c : Dev nD) :
    (Pipeline.ΦA spec1 c : sProp 𝕄)
      = iprop(mscoped c (iprop(∃ d, owns (c : Thread nD τ) mscM fullShare d)) ∗ (∃ r, prngReg c r)) := by
  unfold Pipeline.ΦA mscoped; rw [scopedRest1_eq]; simp only [mscM, owns_whole]; try rfl

end Cert.Kernel.Frame

end
-- ==== Proof.Kernel.MlpFirst.lean ====
/-
  The body of the second pallas_call at a point with j = 0: it zeroes the running sum, adds the point's partial
  product, and leaves the output's staging buffer alone. Stated on any whole staging memrefs, as the list of pieces
  the running sum's buffer ends written with (last first), found by running the body symbolically.
-/
import proofs.«120742_j45956150067864_1_alg».proof.Proof.Kernel.MlpShared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j = 0, on whole memrefs — the four inputs' at `x0 … x3`, the output's at contents `xi4` handed back
    untouched, the running sum's at anything — the body runs to the continuation with the inputs' as they were and the
    running sum's buffer with the pieces `LS0` written. -/
noncomputable def mrunFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) :
    Σ' (L4 : List (View.Piece (Elt F) S256x4096 .f32)), { LS0 : List (View.Piece (Elt F) S256x4096 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_gated_mlp_kernel i arg2 harg2 arg3 harg3 arg4 harg4 arg5 harg5 arg6 harg6 arg7 harg7) K } := by
  refine ⟨[], ?_, fun xi4 E K => ?run⟩
  case run =>
    simp only [cc1_gated_mlp_kernel_eq_skeleton]; unfold cc1_gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frame

end
-- ==== Proof.Kernel.MlpMiddle.lean ====
/-
  The body of the second pallas_call at a point with 0 < j < 55: it adds the point's partial product to the running
  sum the point before left, and leaves the output's staging buffer alone.
-/
import proofs.«120742_j45956150067864_1_alg».proof.Proof.Kernel.MlpFirst

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with 0 < j < 55, on whole memrefs — the four inputs' at `x0 … x3`, the output's at contents `xi4` handed
    back untouched, the running sum's at `xs0` — the body runs to the continuation with the inputs' as they were and the
    running sum's buffer with the pieces `LS0` written. -/
noncomputable def mrunMiddle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) :
    Σ' (L4 : List (View.Piece (Elt F) S256x4096 .f32)), { LS0 : List (View.Piece (Elt F) S256x4096 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_gated_mlp_kernel i arg2 harg2 arg3 harg3 arg4 harg4 arg5 harg5 arg6 harg6 arg7 harg7) K } := by
  refine ⟨[], ?_, fun xi4 E K => ?run⟩
  case run =>
    simp only [cc1_gated_mlp_kernel_eq_skeleton]; unfold cc1_gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Frame

end
-- ==== Proof.Kernel.MlpLast.lean ====
/-
  The body of the second pallas_call at a point with j = 55: it adds the point's partial product to the running sum
  the point before left, and copies the sum to the output's staging buffer.
-/
import proofs.«120742_j45956150067864_1_alg».proof.Proof.Kernel.MlpMiddle

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j = 55, on whole memrefs — the four inputs' at `x0 … x3`, the output's at anything, the running sum's
    at `xs0` — the body runs to the continuation with the inputs' as they were, the output's buffer with the pieces `L4`
    written and the running sum's with `LS0`. -/
noncomputable def mrunLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) :
    Σ' (L4 : List (View.Piece (Elt F) S256x4096 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_gated_mlp_kernel i arg2 harg2 arg3 harg3 arg4 harg4 arg5 harg5 arg6 harg6 arg7 harg7) K } := by
  refine ⟨?_, ?_, fun E K => ?run⟩
  case run =>
    simp only [cc1_gated_mlp_kernel_eq_skeleton]; unfold cc1_gated_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Frame

end
-- ==== Proof.Kernel.MlpRegion.lean ====
/-
  The second pallas_call as one pipeline region: what the output's staging buffer and the running sum hold after every
  point, the region's invariant, its proof data and the body obligation, at a parameter `V` (the unscoped buffers'
  contents when the region is entered).

  The running sum is carried from point to point: after point n it holds what that point's case leaves — computed, at a
  point with j > 0, from what point n − 1 left. The invariant before point n > 0 therefore names the running sum's
  contents after point n − 1; before the first point the buffer holds anything. The output's staging buffer is stored
  only at j = 55 and is idle (handed back as found, not written back) elsewhere.
-/
import proofs.«120742_j45956150067864_1_alg».proof.Proof.Kernel.MlpLast

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At such a point nothing is stored into the output's staging buffer (the window is idle there and not written back):
    a placeholder nothing consults. -/
def mout_first (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) : Vec F S256x4096 .f32 :=
  mVO.read (Elt F) (mVO.writes (Elt F) mVO.junk (mrunFirst c i arg2 harg2 arg3 harg3 arg4 harg4 arg5 harg5 arg6 harg6 arg7 harg7 hc0 hc1 x0 x1 x2 x3).1)

/-- The pieces stored into the running sum's buffer tile it, so they cover it. -/
theorem mscover_first (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) (y : S256x4096.Idx) :
    ∃ pc ∈ (mrunFirst c i arg2 harg2 arg3 harg3 arg4 harg4 arg5 harg5 arg6 harg6 arg7 harg7 hc0 hc1 x0 x1 x2 x3).2.1, y ∈ pc.1.set :=
  View.cover_of_tiledL (mrunFirst c i arg2 harg2 arg3 harg3 arg4 harg4 arg5 harg5 arg6 harg6 arg7 harg7 hc0 hc1 x0 x1 x2 x3).2.1 S256x4096.size (by sl_kernel_rfl) y

/-- What the point leaves in the running sum's buffer: its pieces read back. -/
def msout_first (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) : Vec F S256x4096 .f32 :=
  mVS.read (Elt F) (mVS.writes (Elt F) mVS.junk (mrunFirst c i arg2 harg2 arg3 harg3 arg4 harg4 arg5 harg5 arg6 harg6 arg7 harg7 hc0 hc1 x0 x1 x2 x3).2.1)

/-- At such a point nothing is stored into the output's staging buffer (the window is idle there and not written back):
    a placeholder nothing consults. -/
def mout_middle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVO.read (Elt F) (mVO.writes (Elt F) mVO.junk (mrunMiddle c i arg2 harg2 arg3 harg3 arg4 harg4 arg5 harg5 arg6 harg6 arg7 harg7 hc0 hc1 x0 x1 x2 x3 xs0).1)

/-- The pieces stored into the running sum's buffer tile it, so they cover it. -/
theorem mscover_middle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) (y : S256x4096.Idx) :
    ∃ pc ∈ (mrunMiddle c i arg2 harg2 arg3 harg3 arg4 harg4 arg5 harg5 arg6 harg6 arg7 harg7 hc0 hc1 x0 x1 x2 x3 xs0).2.1, y ∈ pc.1.set :=
  View.cover_of_tiledL (mrunMiddle c i arg2 harg2 arg3 harg3 arg4 harg4 arg5 harg5 arg6 harg6 arg7 harg7 hc0 hc1 x0 x1 x2 x3 xs0).2.1 S256x4096.size (by sl_kernel_rfl) y

/-- What the point leaves in the running sum's buffer: its pieces read back. -/
def msout_middle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVS.read (Elt F) (mVS.writes (Elt F) mVS.junk (mrunMiddle c i arg2 harg2 arg3 harg3 arg4 harg4 arg5 harg5 arg6 harg6 arg7 harg7 hc0 hc1 x0 x1 x2 x3 xs0).2.1)

/-- What the point leaves in the output's staging buffer: its pieces read back. -/
def mout_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVO.read (Elt F) (mVO.writes (Elt F) mVO.junk (mrunLast c i arg2 harg2 arg3 harg3 arg4 harg4 arg5 harg5 arg6 harg6 arg7 harg7 hc0 hc1 x0 x1 x2 x3 xs0).1)

/-- The pieces stored into the output's staging buffer tile it, so they cover it. -/
theorem mcover_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) (y : S256x4096.Idx) :
    ∃ pc ∈ (mrunLast c i arg2 harg2 arg3 harg3 arg4 harg4 arg5 harg5 arg6 harg6 arg7 harg7 hc0 hc1 x0 x1 x2 x3 xs0).1, y ∈ pc.1.set :=
  View.cover_of_tiledL (mrunLast c i arg2 harg2 arg3 harg3 arg4 harg4 arg5 harg5 arg6 harg6 arg7 harg7 hc0 hc1 x0 x1 x2 x3 xs0).1 S256x4096.size (by sl_kernel_rfl) y

/-- The pieces stored into the running sum's buffer tile it, so they cover it. -/
theorem mscover_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) (y : S256x4096.Idx) :
    ∃ pc ∈ (mrunLast c i arg2 harg2 arg3 harg3 arg4 harg4 arg5 harg5 arg6 harg6 arg7 harg7 hc0 hc1 x0 x1 x2 x3 xs0).2.1, y ∈ pc.1.set :=
  View.cover_of_tiledL (mrunLast c i arg2 harg2 arg3 harg3 arg4 harg4 arg5 harg5 arg6 harg6 arg7 harg7 hc0 hc1 x0 x1 x2 x3 xs0).2.1 S256x4096.size (by sl_kernel_rfl) y

/-- What the point leaves in the running sum's buffer: its pieces read back. -/
def msout_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVS.read (Elt F) (mVS.writes (Elt F) mVS.junk (mrunLast c i arg2 harg2 arg3 harg3 arg4 harg4 arg5 harg5 arg6 harg6 arg7 harg7 hc0 hc1 x0 x1 x2 x3 xs0).2.1)

/-! ## Point by point -/

/-- What the output's staging buffer (first component) and the running sum (second) hold after the body at position `n`:
    the case the closed forms select there, run on the point's memrefs and input blocks, over what position `n − 1` left in
    the running sum. -/
def moutsAt (c : Dev nD) : (n : ℕ) → n < cfg1.N → Vec F S256x4096 .f32 × Vec F S256x4096 .f32
  | 0, hn => (mout_first c (grid1.coords ⟨0, hn⟩) (mms0 ⟨0, hn⟩) (mhs0 ⟨0, hn⟩) (mms1 ⟨0, hn⟩) (mhs1 ⟨0, hn⟩) (mms2 ⟨0, hn⟩) (mhs2 ⟨0, hn⟩) (mms3 ⟨0, hn⟩) (mhs3 ⟨0, hn⟩) (mms4 ⟨0, hn⟩) (mhs4 ⟨0, hn⟩) mscM (Memref.isWhole_whole _) ((hcondFirst ⟨0, hn⟩).mpr (Nat.zero_mod _)) (fun h => (fun h => by (try dsimp only at h); omega) ((hcondLast ⟨0, hn⟩).mp h)) (mblk V c 0 ⟨0, hn⟩) (mblk V c 1 ⟨0, hn⟩) (mblk V c 2 ⟨0, hn⟩) (mblk V c 3 ⟨0, hn⟩), msout_first c (grid1.coords ⟨0, hn⟩) (mms0 ⟨0, hn⟩) (mhs0 ⟨0, hn⟩) (mms1 ⟨0, hn⟩) (mhs1 ⟨0, hn⟩) (mms2 ⟨0, hn⟩) (mhs2 ⟨0, hn⟩) (mms3 ⟨0, hn⟩) (mhs3 ⟨0, hn⟩) (mms4 ⟨0, hn⟩) (mhs4 ⟨0, hn⟩) mscM (Memref.isWhole_whole _) ((hcondFirst ⟨0, hn⟩).mpr (Nat.zero_mod _)) (fun h => (fun h => by (try dsimp only at h); omega) ((hcondLast ⟨0, hn⟩).mp h)) (mblk V c 0 ⟨0, hn⟩) (mblk V c 1 ⟨0, hn⟩) (mblk V c 2 ⟨0, hn⟩) (mblk V c 3 ⟨0, hn⟩))
  | n + 1, hn =>
    if h0 : (n + 1) % 56 = 0 then
      if h1 : (n + 1) % 56 = 55 then
        False.elim (by omega)
      else
        (mout_first c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) ((hcondFirst ⟨n + 1, hn⟩).mpr h0) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩), msout_first c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) ((hcondFirst ⟨n + 1, hn⟩).mpr h0) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩))
    else
      if h1 : (n + 1) % 56 = 55 then
        (mout_last c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) ((hcondLast ⟨n + 1, hn⟩).mpr h1) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2, msout_last c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) ((hcondLast ⟨n + 1, hn⟩).mpr h1) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2)
      else
        (mout_middle c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2, msout_middle c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2)

/-- At a point with j = 0: the first case's contents. -/
theorem moutsAt_first (c : Dev nD) (t : Fin cfg1.N) (h0 : t.val % 56 = 0) (h1 : ¬t.val % 56 = 55) :
    moutsAt V c t.val t.isLt = (mout_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t), msout_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)) := by
  obtain ⟨n, hn⟩ := t
  cases n with
  | zero => exact rfl
  | succ n => exact (dif_pos h0).trans ((dif_neg h1).trans rfl)

/-- At a point with 0 < j < 55: the middle case's contents, over what the point before left. -/
theorem moutsAt_middle (c : Dev nD) (t : Fin cfg1.N) (h0 : ¬t.val % 56 = 0) (h1 : ¬t.val % 56 = 55) :
    moutsAt V c t.val t.isLt = (mout_middle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) (moutsAt V c (t.val - 1) (Nat.lt_of_le_of_lt (Nat.sub_le _ _) t.isLt)).2, msout_middle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) (moutsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 55: the last case's contents, over what the point before left. -/
theorem moutsAt_last (c : Dev nD) (t : Fin cfg1.N) (h0 : ¬t.val % 56 = 0) (h1 : t.val % 56 = 55) :
    moutsAt V c t.val t.isLt = (mout_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2, msout_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at `n = 0` the scoped rest and the generator register at some state; afterwards the same with
    the running sum's buffer at what position `n − 1` left in it. -/
def mPhi (c : Dev nD) : (n : ℕ) → n ≤ cfg1.N → sProp 𝕄
  | 0, _ => Pipeline.ΦA spec1 c
  | n + 1, hn => iprop(mscoped c (owns (c : Thread nD τ) mscM fullShare ((moutsAt V c n hn).2)) ∗ (∃ r, prngReg c r))

theorem mPhi_zero (c : Dev nD) (n : ℕ) (h : n ≤ cfg1.N) (hz : n = 0) : mPhi V c n h = Pipeline.ΦA spec1 c := by
  subst hz; rfl

theorem mPhi_succ (c : Dev nD) (n : ℕ) (hn : n < cfg1.N) :
    mPhi V c (n + 1) hn = iprop(mscoped c (owns (c : Thread nD τ) mscM fullShare ((moutsAt V c n hn).2)) ∗ (∃ r, prngReg c r)) := rfl

theorem mPhi_pos (c : Dev nD) (n : ℕ) (h : n ≤ cfg1.N) (hz : n ≠ 0) :
    mPhi V c n h = iprop(mscoped c (owns (c : Thread nD τ) mscM fullShare ((moutsAt V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `moutsAt`'s first component; the invariant `mPhi`; nothing owed; full shares. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => mblk V c 3 t
    | ⟨4, _⟩ => (moutsAt V c t.val t.isLt).1
  Φ t := mPhi V c t.val (Nat.le_of_lt_succ t.isLt)
  q _ := fullShare
  owed _ := 0

theorem mA_eq (c : Dev nD) (w : Fin cfg1.W) : (mdat V c).A w = V c (Pipeline.arrRef spec1 w) := by
  dsimp only [mdat]

theorem mPhi_castSucc (c : Dev nD) (t : Fin cfg1.N) :
    (mdat V c).Φ t.castSucc = mPhi V c t.val (Nat.le_of_lt t.isLt) := by
  dsimp only [mdat]; simp only [Fin.coe_castSucc]

theorem mafter0 (c : Dev nD) (t : Fin cfg1.N) : (mdat V c).after 0 t = mblk V c 0 t := by dsimp only [mdat]
theorem mafter1 (c : Dev nD) (t : Fin cfg1.N) : (mdat V c).after 1 t = mblk V c 1 t := by dsimp only [mdat]
theorem mafter2 (c : Dev nD) (t : Fin cfg1.N) : (mdat V c).after 2 t = mblk V c 2 t := by dsimp only [mdat]
theorem mafter3 (c : Dev nD) (t : Fin cfg1.N) : (mdat V c).after 3 t = mblk V c 3 t := by dsimp only [mdat]
theorem mafter4 (c : Dev nD) (t : Fin cfg1.N) : (mdat V c).after 4 t = (moutsAt V c t.val t.isLt).1 := by dsimp only [mdat]

theorem mbefore0 (c : Dev nD) (t : Fin cfg1.N) (d) : (mdat V c).before 0 t d = mblk V c 0 t :=
  mbefore0_of V (mdat V c) (mA_eq V c 0) (mafter0 V c) t d
theorem mbefore1 (c : Dev nD) (t : Fin cfg1.N) (d) : (mdat V c).before 1 t d = mblk V c 1 t :=
  mbefore1_of V (mdat V c) (mA_eq V c 1) (mafter1 V c) t d
theorem mbefore2 (c : Dev nD) (t : Fin cfg1.N) (d) : (mdat V c).before 2 t d = mblk V c 2 t :=
  mbefore2_of V (mdat V c) (mA_eq V c 2) (mafter2 V c) t d
theorem mbefore3 (c : Dev nD) (t : Fin cfg1.N) (d) : (mdat V c).before 3 t d = mblk V c 3 t :=
  mbefore3_of V (mdat V c) (mA_eq V c 3) (mafter3 V c) t d

/-! ## The body obligation -/

/-- What the body is called with at point `t`, the windows one by one, -/
def mbodyPre (c : Dev nD) (t : Fin cfg1.N) : sProp 𝕄 :=
  iprop((mdat V c).Φ t.castSucc ∗ (mdat V c).owesAt () t.castSucc
    ∗ (∃ d, owns (c : Thread nD τ) (mms0 t) fullShare ((mdat V c).before 0 t d))
    ∗ (∃ d, owns (c : Thread nD τ) (mms1 t) fullShare ((mdat V c).before 1 t d))
    ∗ (∃ d, owns (c : Thread nD τ) (mms2 t) fullShare ((mdat V c).before 2 t d))
    ∗ (∃ d, owns (c : Thread nD τ) (mms3 t) fullShare ((mdat V c).before 3 t d))
    ∗ (∃ d, owns (c : Thread nD τ) (mms4 t) fullShare ((mdat V c).before 4 t d)))

/-- and what it returns. -/
def mbodyPost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t
    ∗ (mdat V c).leavesExact 4 t)

set_option maxHeartbeats 4800000 in
/-- The body at any point. The inputs' memrefs hold their blocks; the closed forms say which case the point is in; the
    invariant hands the body the running sum at what the point before left (at anything, at the very first point) and takes
    it back at this point's contents; where the output window is idle its buffer goes back as found; nothing is owed. -/
theorem msound_body (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore0, mbefore1, mbefore2, mbefore3]
  rw [show (mdat V c).owesAt () t.succ = (mdat V c).owesAt () t.castSucc from rfl]
  rw [show (mdat V c).Φ t.succ = mPhi V c (t.val + 1) t.isLt from rfl, mPhi_succ]
  have hN : t.val < 448 := lt_of_lt_of_eq t.isLt (show cfg1.N = 448 from N_1)
  by_cases h0 : t.val % 56 = 0
  · have h1 : ¬t.val % 56 = 55 := by omega
    rw [show (mdat V c).leavesExact 0 t = owns (c : Thread nD τ) (mms0 t) fullShare ((mdat V c).after 0 t) from by
      unfold Dat.leavesExact; rw [mlive0 t], mafter0]
    rw [show (mdat V c).leavesExact 1 t = owns (c : Thread nD τ) (mms1 t) fullShare ((mdat V c).after 1 t) from by
      unfold Dat.leavesExact; rw [mlive1 t], mafter1]
    rw [show (mdat V c).leavesExact 2 t = owns (c : Thread nD τ) (mms2 t) fullShare ((mdat V c).after 2 t) from by
      unfold Dat.leavesExact; rw [mlive2 t], mafter2]
    rw [show (mdat V c).leavesExact 3 t = owns (c : Thread nD τ) (mms3 t) fullShare ((mdat V c).after 3 t) from by
      unfold Dat.leavesExact; rw [mlive3 t], mafter3]
    rw [Dat.leavesExact_idle (mdat V c) 4 t (midle4 t (fun h => h1 ((hcondLast t).mp h))) (mnoFlush4 t (fun h => h1 ((hcondLast t).mp h)))]
    rw [moutsAt_first V c t h0 h1]
    unfold msout_first; (try dsimp only)
    by_cases hz : t.val = 0
    · rw [mPhi_castSucc V c t, mPhi_zero V c _ _ hz, mPhiA_eq]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunFirst c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t))
        iexact Hg
      isplitl [Ho]; · iexact Ho
      isplitl [H0]; · iexact H0
      isplitl [H1]; · iexact H1
      isplitl [H2]; · iexact H2
      isplitl [H3]; · iexact H3
      iexists _; iexact H4
    · rw [mPhi_castSucc V c t, mPhi_pos V c _ _ hz]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunFirst c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t))
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 56 = 55
    ·
      rw [show (mdat V c).leavesExact 0 t = owns (c : Thread nD τ) (mms0 t) fullShare ((mdat V c).after 0 t) from by
        unfold Dat.leavesExact; rw [mlive0 t], mafter0]
      rw [show (mdat V c).leavesExact 1 t = owns (c : Thread nD τ) (mms1 t) fullShare ((mdat V c).after 1 t) from by
        unfold Dat.leavesExact; rw [mlive1 t], mafter1]
      rw [show (mdat V c).leavesExact 2 t = owns (c : Thread nD τ) (mms2 t) fullShare ((mdat V c).after 2 t) from by
        unfold Dat.leavesExact; rw [mlive2 t], mafter2]
      rw [show (mdat V c).leavesExact 3 t = owns (c : Thread nD τ) (mms3 t) fullShare ((mdat V c).after 3 t) from by
        unfold Dat.leavesExact; rw [mlive3 t], mafter3]
      rw [show (mdat V c).leavesExact 4 t = owns (c : Thread nD τ) (mms4 t) fullShare ((mdat V c).after 4 t) from by
        unfold Dat.leavesExact; rw [mlive4 t ((hcondLast t).mpr h1)], mafter4]
      rw [moutsAt_last V c t h0 h1]
      unfold mout_last msout_last; (try dsimp only)
      rw [mPhi_castSucc V c t, mPhi_pos V c _ _ hz]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunLast c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (mcover_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) _)
    ·
      rw [show (mdat V c).leavesExact 0 t = owns (c : Thread nD τ) (mms0 t) fullShare ((mdat V c).after 0 t) from by
        unfold Dat.leavesExact; rw [mlive0 t], mafter0]
      rw [show (mdat V c).leavesExact 1 t = owns (c : Thread nD τ) (mms1 t) fullShare ((mdat V c).after 1 t) from by
        unfold Dat.leavesExact; rw [mlive1 t], mafter1]
      rw [show (mdat V c).leavesExact 2 t = owns (c : Thread nD τ) (mms2 t) fullShare ((mdat V c).after 2 t) from by
        unfold Dat.leavesExact; rw [mlive2 t], mafter2]
      rw [show (mdat V c).leavesExact 3 t = owns (c : Thread nD τ) (mms3 t) fullShare ((mdat V c).after 3 t) from by
        unfold Dat.leavesExact; rw [mlive3 t], mafter3]
      rw [Dat.leavesExact_idle (mdat V c) 4 t (midle4 t (fun h => h1 ((hcondLast t).mp h))) (mnoFlush4 t (fun h => h1 ((hcondLast t).mp h)))]
      rw [moutsAt_middle V c t h0 h1]
      unfold msout_middle; (try dsimp only)
      rw [mPhi_castSucc V c t, mPhi_pos V c _ _ hz]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunMiddle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_middle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem mbody_obligation (c : Dev nD) : BodyObligation (mdat (F := F) V c) (defs₀ (F := F)) Variants.none () Set.univ := fun t => by
  rw [bigSep_W1, bigSep_W1]
  exact msound_body V c t

/-! ## The invariant's two ends -/

/-- What the region is entered with is the invariant before the first point. -/
theorem mhin (c : Dev nD) : Pipeline.ΦA spec1 c ⊢ (mdat V c).Φ 0 := by
  rw [show (mdat V c).Φ 0 = mPhi V c 0 (Nat.zero_le _) from rfl, mPhi_zero V c 0 _ rfl]
  try exact Idealize.SL.BI.Entails.refl _

/-- After any point the invariant gives the constant one back: the running sum's named contents are forgotten. -/
theorem mPhi_out (c : Dev nD) (t : Fin (cfg1.N + 1)) (ht : t.val ≠ 0) : (mdat V c).Φ t ⊢ Pipeline.ΦA spec1 c := by
  rw [show (mdat V c).Φ t = mPhi V c t.val (Nat.le_of_lt_succ t.isLt) from rfl, mPhi_pos V c _ _ ht, mPhiA_eq]
  unfold mscoped
  iintro ⟨⟨HA, HB, HC, HD, HE, HS0⟩, Hg⟩
  isplitl [HA HB HC HD HE HS0]
  · isplitl [HA]; · iexact HA
    isplitl [HB]; · iexact HB
    isplitl [HC]; · iexact HC
    isplitl [HD]; · iexact HD
    isplitl [HE]; · iexact HE
    iexists _; iexact HS0
  iexact Hg

/-- The same after the last point. -/
theorem mhout (c : Dev nD) : (mdat V c).Φ (Fin.last cfg1.N) ⊢ Pipeline.ΦA spec1 c :=
  mPhi_out V c _ (by rw [Fin.val_last]; have : cfg1.N = 448 := N_1; omega)

end Cert.Kernel.Frame

end
-- ==== Proof.Kernel.ProgramRun.lean ====
/-
  The program's run from launch to return: three stretches of host operations around the two pipeline regions.

  The contents of the core's unscoped buffers at each boundary are a fold from the launch memory: a host stretch
  applies its operations; a region leaves each of its windows' arrays at what its write-backs fold to and every other
  buffer as entered. The thread state carried through is "every unscoped buffer at the boundary's contents, the generator
  register at some state, nothing owed". Every weakly fair execution terminates, and in every final state EVERY unscoped
  buffer holds the last fold's contents — the arguments therefore what they held at launch, since no stretch writes one
  and no region has one among its windows' arrays.
-/
import proofs.«120742_j45956150067864_1_alg».proof.Proof.Kernel.NormRegion
import proofs.«120742_j45956150067864_1_alg».proof.Proof.Kernel.MlpRegion
import proofs.«120742_j45956150067864_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the two reshapes): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (ndat (V1 m ρ) c).arrAt w cfg0.N
theorem W2_arr (c : Dev nD) (w : Fin cfg0.W) :
    W2 m ρ c (Proc.devRef .tc (Pipeline.arrRef spec0 w)) = (ndat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (ndat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the three weight conversions): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (mdat (V3 m ρ) c).arrAt w cfg1.N
theorem W4_arr (c : Dev nD) (w : Fin cfg1.W) :
    W4 m ρ c (Proc.devRef .tc (Pipeline.arrRef spec1 w)) = (mdat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (mdat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch (the result's reshape): what the program returns with. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => ndat (V1 m ρ) c
  | ⟨1, _⟩ => fun c => mdat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: its arrays split out of the unscoped buffers at entry and put back at the exit contents; the generator register into the constant invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (nbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state, the same way; its invariant starts as the constant one and gives it back after the last point, the running sum's named contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (mdat (V3 m ρ) c).Φ 0 from rfl]
    have h := mhin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (mdat (V3 m ρ) c).Φ (Fin.last cfg1.N) from rfl]
    have h := mhout (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Frame

end
-- ==== Proof.KernelIdeal.NormRegion.lean ====
/-
  The first pallas_call (row normalisation) as one pipeline region, at a parameter `V`: the contents of the
  TensorCore's unscoped buffers when the region is entered.

  The grid has 4 points; point `t` stages rows 512·t … 512·t+511 of the 2048 × 4096 input (window 0), the whole
  1 × 4096 weight row (window 1, staged once and not moved afterwards) and writes back the same rows of the
  2048 × 4096 output (window 2). The body loads both input blocks whole and stores ONE whole block: the body's pure
  term of the two loads. So after the body the output's staging buffer holds that term of the two input blocks, the
  input buffers are as they were, and nothing else of the core is touched: the region's invariant is the constant
  "scoped rest and generator register at some state".
-/
import proofs.«120742_j45956150067864_1_alg».proof.Proof.Gen.KernelIdeal.Launch
import proofs.«120742_j45956150067864_1_alg».proof.Proof.Gen.KernelIdeal.Skeleton
import proofs.«120742_j45956150067864_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def nblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, for any proof data over `V` that leaves it in place. -/
theorem nbefore_rows_of {c : Dev nD} (dat : Dat τ (Elt F) Unit ℕ (UR sig nD τ) ℕ cfg0 c) (hA : dat.A 0 = V c (Pipeline.arrRef spec0 0))
    (hafter : ∀ t, dat.after 0 t = nblk V c 0 t) (t : Fin cfg0.N) (d) : dat.before 0 t d = nblk V c 0 t :=
  (dat.before_in_eq_fetched 0 rfl (fun _ => rfl) (fun _ _ _ => rfl) (fun t => by rw [hafter]; unfold Dat.blockOf nblk; rw [hA]; try rfl) t d).trans
    (by unfold Dat.fetched Dat.blockOf nblk; rw [hA]; try rfl)

/-- The weight row's staging buffer holds the weight row at every point: staged at the first, its index never moves. -/
theorem nbefore_weight_of {c : Dev nD} (dat : Dat τ (Elt F) Unit ℕ (UR sig nD τ) ℕ cfg0 c) (hA : dat.A 1 = V c (Pipeline.arrRef spec0 1))
    (hafter : ∀ t, dat.after 1 t = nblk V c 1 t) (t : Fin cfg0.N) (d) : dat.before 1 t d = nblk V c 1 t :=
  (dat.before_in_eq_fetched 1 rfl (fun _ => rfl) (fun _ _ _ => rfl) (fun t => by rw [hafter]; unfold Dat.blockOf nblk; rw [hA]; try rfl) t d).trans
    (by unfold Dat.fetched Dat.blockOf nblk; rw [hA]; try rfl)

/-! ## The body's accesses and what it leaves -/

/-- The whole 512 × 4096 block (the rows' load and the output's store). -/
abbrev nrRows : Rect S512x4096 := Rect.unit (s := S512x4096) ![0, 0] S512x4096.size inb_S512x4096_S512x4096_0_0
/-- The whole 1 × 4096 block (the weight row's load). -/
abbrev nrWeight : Rect S1x4096 := Rect.unit (s := S1x4096) ![0, 0] S1x4096.size inb_S1x4096_S1x4096_0_0

/-- The output's staging buffer after the body: its one store, of the body's pure term of the two loads. -/
def nout (x0 : Vec F S512x4096 .f32) (x1 : Vec F S1x4096 .f32) : Vec F S512x4096 .bf16 :=
  View.canon [⟨nrRows, k0_pay1 (View.ld x0 nrRows) (View.ld x1 nrWeight)⟩]

/-- The one store covers the buffer. -/
theorem ncover (p0 : Vec F S512x4096 .bf16) (y : S512x4096.Idx) :
    ∃ pc ∈ ([⟨nrRows, p0⟩] : List (View.Piece (Elt F) S512x4096 .bf16)), y ∈ pc.1.set :=
  View.cover_of_tiled [⟨nrRows, p0⟩] S512x4096.size (by rfl) y

/-! ## The body's triple -/

set_option maxHeartbeats 1000000 in
/-- On whole staging memrefs, the inputs' at `x0`, `x1` and the output's at anything, the body runs to the continuation
    with the inputs' as they were and the output's at `nout x0 x1`. -/
theorem nsound_kernel (c : Dev nD) (E : Set ℕ) (i : grid0.Coords) (arg1 : Memref sig .tc .vmem S512x4096 .f32) (harg1 : arg1.IsWhole)
    (arg2 : Memref sig .tc .vmem S1x4096 .f32) (harg2 : arg2.IsWhole) (arg3 : Memref sig .tc .vmem S512x4096 .bf16) (harg3 : arg3.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (nout x0 x1)) -∗ K ⟨⟩))
      ⊢ wp frame (wpE (defs₀ (F := F)) Variants.none c none) E (cc0_rmsnorm_kernel i arg1 harg1 arg2 harg2 arg3 harg3) K := by
  simp only [cc0_rmsnorm_kernel_eq_skeleton]; unfold cc0_rmsnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (ncover _)

/-! ## The proof data -/

/-- The region's proof data on core `c`: the arrays as the region finds them; after the body at point `t` each input's
    buffer at its block and the output's at `nout` of the two blocks; the constant invariant; nothing owed; full shares. -/
def ndat (c : Dev nD) : Dat τ (Elt F) Unit ℕ (UR sig nD τ) ℕ cfg0 c where
  A w := V c (Pipeline.arrRef spec0 w)
  after w t := match w with
    | ⟨0, _⟩ => nblk V c 0 t
    | ⟨1, _⟩ => nblk V c 1 t
    | ⟨2, _⟩ => nout (nblk V c 0 t) (nblk V c 1 t)
  Φ _ := Pipeline.ΦA spec0 c
  q _ := fullShare
  owed _ := 0

theorem nA_eq (c : Dev nD) (w : Fin cfg0.W) : (ndat V c).A w = V c (Pipeline.arrRef spec0 w) := by
  dsimp only [ndat]

theorem nafter_rows (c : Dev nD) (t : Fin cfg0.N) : (ndat V c).after 0 t = nblk V c 0 t := by dsimp only [ndat]
theorem nafter_weight (c : Dev nD) (t : Fin cfg0.N) : (ndat V c).after 1 t = nblk V c 1 t := by dsimp only [ndat]
theorem nafter_out (c : Dev nD) (t : Fin cfg0.N) : (ndat V c).after 2 t = nout (nblk V c 0 t) (nblk V c 1 t) := by dsimp only [ndat]

theorem nbefore_rows (c : Dev nD) (t : Fin cfg0.N) (d) : (ndat V c).before 0 t d = nblk V c 0 t :=
  nbefore_rows_of V (ndat V c) (nA_eq V c 0) (nafter_rows V c) t d
theorem nbefore_weight (c : Dev nD) (t : Fin cfg0.N) (d) : (ndat V c).before 1 t d = nblk V c 1 t :=
  nbefore_weight_of V (ndat V c) (nA_eq V c 1) (nafter_weight V c) t d

/-! ## The body obligation -/

/-- What the body is called with at point `t`, the windows one by one, -/
def nbodyPre (c : Dev nD) (t : Fin cfg0.N) : sProp 𝕄 :=
  iprop((ndat V c).Φ t.castSucc ∗ (ndat V c).owesAt () t.castSucc
    ∗ (∃ d, owns (c : Thread nD τ) (st0_0 t) fullShare ((ndat V c).before 0 t d))
    ∗ (∃ d, owns (c : Thread nD τ) (st0_1 t) fullShare ((ndat V c).before 1 t d))
    ∗ (∃ d, owns (c : Thread nD τ) (st0_2 t) fullShare ((ndat V c).before 2 t d)))

/-- and what it returns. -/
def nbodyPost (c : Dev nD) (t : Fin cfg0.N) : sProp 𝕄 :=
  iprop((ndat V c).Φ t.succ ∗ (ndat V c).owesAt () t.succ
    ∗ owns (c : Thread nD τ) (st0_0 t) fullShare ((ndat V c).after 0 t)
    ∗ owns (c : Thread nD τ) (st0_1 t) fullShare ((ndat V c).after 1 t)
    ∗ owns (c : Thread nD τ) (st0_2 t) fullShare ((ndat V c).after 2 t))

/-- The body at any point: the inputs' memrefs hold their blocks, so the triple applies; the invariant and the core's
    dues pass through unread. -/
theorem nsound_body (c : Dev nD) (t : Fin cfg0.N) :
    nbodyPre V c t ⊢ wp frame (wpE (defs₀ (F := F)) Variants.none c none) Set.univ (bodyAt0 t) (fun _ => nbodyPost V c t) := by
  unfold nbodyPre nbodyPost bodyAt0
  simp only [nbefore_rows, nbefore_weight]
  rw [show (ndat V c).Φ t.succ = (ndat V c).Φ t.castSucc from rfl,
    show (ndat V c).owesAt () t.succ = (ndat V c).owesAt () t.castSucc from rfl,
    nafter_rows, nafter_weight, nafter_out]
  iintro ⟨HΦ, Ho, ⟨%d0, H0⟩, ⟨%d1, H1⟩, ⟨%d2, H2⟩⟩
  iapply (nsound_kernel c Set.univ _ _ _ _ _ _ _ (nblk V c 0 t) (nblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem nbody_obligation (c : Dev nD) : BodyObligation (ndat (F := F) V c) (defs₀ (F := F)) Variants.none () Set.univ := fun t => by
  rw [bigSep_W0, bigSep_W0]
  exact nsound_body V c t

end Cert.KernelIdeal.Frame

end
-- ==== Proof.KernelIdeal.MlpShared.lean ====
/-
  The second pallas_call (the gated projection with its reduction over the inner axis) as one pipeline region:
  what its three control cases share, at a parameter `V` — the unscoped buffers' contents when the region is entered.

  The grid is 8 × 56 = 448 points, point `t` = (row block s, inner block j) with j = t mod 56. The body keeps a running
  sum in a scratch buffer: at j = 0 it first stores zeros there; at every point it adds the point's partial product;
  at j = 55 it copies the scratch to the output's staging buffer, which the pipeline writes back only there and leaves
  idle elsewhere. So a point is in one of three cases: j = 0 (first), 0 < j < 55 (middle), j = 55 (last).
-/
import proofs.«120742_j45956150067864_1_alg».proof.Proof.Gen.KernelIdeal.Launch
import proofs.«120742_j45956150067864_1_alg».proof.Proof.Gen.KernelIdeal.Skeleton
import proofs.«120742_j45956150067864_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalised rows' staging buffer holds row block s at every point of that row block: staged at j = 0, its index does not move along j. -/
theorem mbefore0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-- The gate weights' staging buffer holds inner block j of them, staged at every point. -/
theorem mbefore1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)

/-- The up weights' staging buffer holds inner block j of them, staged at every point. -/
theorem mbefore2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-- The down weights' staging buffer holds column block j of them, staged at every point. -/
theorem mbefore3_of {c : Dev nD} (dat : Dat τ (Elt F) Unit ℕ (UR sig nD τ) ℕ cfg1 c) (hA : dat.A 3 = V c (Pipeline.arrRef spec1 3))
    (hafter : ∀ t, dat.after 3 t = mblk V c 3 t) (t : Fin cfg1.N) (d) : dat.before 3 t d = mblk V c 3 t :=
  (dat.before_in_eq_fetched 3 rfl (fun _ => rfl) (fun _ _ _ => rfl) (fun t => by rw [hafter]; unfold Dat.blockOf mblk; rw [hA]; try rfl) t d).trans
    (by unfold Dat.fetched Dat.blockOf mblk; rw [hA]; try rfl)

/-! ## The body's two branch conditions, in closed form over the grid -/

/-- The condition under which the body zeroes the running sum (the scalar chain of its first branch, substituted). -/
abbrev mcondFirst (i : grid1.Coords) : Prop := (Scalar.cmpi .ne (Scalar.extui (Scalar.cmpi .eq (BitVec.ofNat 32 (i 1).val) 0#32)) 0#32) = 1#1
/-- It holds exactly at the points with j = 0. -/
theorem hcondFirst : ∀ t : Fin cfg1.N, mcondFirst (grid1.coords t) ↔ t.val % 56 = 0 :=
  (by decide +kernel : ∀ t : Fin grid1.N, mcondFirst (grid1.coords t) ↔ t.val % 56 = 0)

/-- The condition under which the body copies the running sum out. -/
abbrev mcondLast (i : grid1.Coords) : Prop := k1_cond2 i = 1#1
/-- It holds exactly at the points with j = 55. -/
theorem hcondLast : ∀ t : Fin cfg1.N, mcondLast (grid1.coords t) ↔ t.val % 56 = 55 :=
  (by decide +kernel : ∀ t : Fin grid1.N, mcondLast (grid1.coords t) ↔ t.val % 56 = 55)

/-! ## Where the output window is idle -/

theorem mlive0 : ∀ t : Fin cfg1.N, cfg1.idle 0 (grid1.coords t) = false := fun _ => rfl
theorem mlive1 : ∀ t : Fin cfg1.N, cfg1.idle 1 (grid1.coords t) = false := fun _ => rfl
theorem mlive2 : ∀ t : Fin cfg1.N, cfg1.idle 2 (grid1.coords t) = false := fun _ => rfl
theorem mlive3 : ∀ t : Fin cfg1.N, cfg1.idle 3 (grid1.coords t) = false := fun _ => rfl
/-- Where the running sum is not copied out the output window is idle, -/
theorem midle4 : ∀ t : Fin cfg1.N, ¬mcondLast (grid1.coords t) → cfg1.idle 4 (grid1.coords t) = true := by decide +kernel
/-- and is not written back; -/
theorem mnoFlush4 : ∀ t : Fin cfg1.N, ¬mcondLast (grid1.coords t) → (cfg1.win 4).flush t = false := by decide +kernel
/-- where it is, the window is live. -/
theorem mlive4 : ∀ t : Fin cfg1.N, mcondLast (grid1.coords t) → cfg1.idle 4 (grid1.coords t) = false := by decide +kernel

/-! ## The memrefs the body is called with -/

/-- One staging buffer of the output window, through which its contents are stated. -/
abbrev mVO : View sig .tc .vmem S256x4096 .f32 := (Memref.whole cc1_stg4_0 : Memref sig .tc .vmem S256x4096 .f32).view
abbrev mms0 (t : Fin cfg1.N) : Memref sig .tc .vmem S256x4096 .bf16 := win1_0.stage (cfg1.slots t 0)
abbrev mhs0 (t : Fin cfg1.N) : (mms0 t).IsWhole := hstage1_0 ((cfg1.slots t 0).cast nbuf1_0)
abbrev mms1 (t : Fin cfg1.N) : Memref sig .tc .vmem S256x4096 .bf16 := win1_1.stage (cfg1.slots t 1)
abbrev mhs1 (t : Fin cfg1.N) : (mms1 t).IsWhole := hstage1_1 ((cfg1.slots t 1).cast nbuf1_1)
abbrev mms2 (t : Fin cfg1.N) : Memref sig .tc .vmem S256x4096 .bf16 := win1_2.stage (cfg1.slots t 2)
abbrev mhs2 (t : Fin cfg1.N) : (mms2 t).IsWhole := hstage1_2 ((cfg1.slots t 2).cast nbuf1_2)
abbrev mms3 (t : Fin cfg1.N) : Memref sig .tc .vmem S4096x256 .bf16 := win1_3.stage (cfg1.slots t 3)
abbrev mhs3 (t : Fin cfg1.N) : (mms3 t).IsWhole := hstage1_3 ((cfg1.slots t 3).cast nbuf1_3)
abbrev mms4 (t : Fin cfg1.N) : Memref sig .tc .vmem S256x4096 .f32 := win1_4.stage (cfg1.slots t 4)
abbrev mhs4 (t : Fin cfg1.N) : (mms4 t).IsWhole := hstage1_4 ((cfg1.slots t 4).cast nbuf1_4)
/-- The running sum's buffer: a whole scoped buffer of the kernel's own, passed beside the windows. -/
abbrev mscM : Memref sig .tc .vmem S256x4096 .f32 := Memref.whole cc1_scratch0
/-- The same as a view: what it holds is stated through it. -/
abbrev mVS : View sig .tc .vmem S256x4096 .f32 := mscM.view

/-! ## The scoped rest of the core around the running sum -/

/-- The core's scoped buffers that no window of this region stages — the first region's five staging buffers, each whole
    at some contents — around a slot `X` for the running sum's buffer. -/
def mscoped (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

/-- The constant invariant (scoped rest and generator register at some state) with the running sum's buffer as a memref
    owned at some contents. -/
theorem mPhiA_eq (c : Dev nD) :
    (Pipeline.ΦA spec1 c : sProp 𝕄)
      = iprop(mscoped c (iprop(∃ d, owns (c : Thread nD τ) mscM fullShare d)) ∗ (∃ r, prngReg c r)) := by
  unfold Pipeline.ΦA mscoped; rw [scopedRest1_eq]; simp only [mscM, owns_whole]; try rfl

end Cert.KernelIdeal.Frame

end
-- ==== Proof.KernelIdeal.MlpFirst.lean ====
/-
  The body of the second pallas_call at a point with j = 0: it zeroes the running sum, adds the point's partial
  product, and leaves the output's staging buffer alone. Stated on any whole staging memrefs, as the list of pieces
  the running sum's buffer ends written with (last first), found by running the body symbolically.
-/
import proofs.«120742_j45956150067864_1_alg».proof.Proof.KernelIdeal.MlpShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j = 0, on whole memrefs — the four inputs' at `x0 … x3`, the output's at contents `xi4` handed back
    untouched, the running sum's at anything — the body runs to the continuation with the inputs' as they were and the
    running sum's buffer with the pieces `LS0` written. -/
noncomputable def mrunFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) :
    Σ' (L4 : List (View.Piece (Elt F) S256x4096 .f32)), { LS0 : List (View.Piece (Elt F) S256x4096 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_gated_mlp_kernel i arg2 harg2 arg3 harg3 arg4 harg4 arg5 harg5 arg6 harg6 arg7 harg7) K } := by
  refine ⟨[], ?_, fun xi4 E K => ?run⟩
  case run =>
    simp only [cc1_gated_mlp_kernel_eq_skeleton]; unfold cc1_gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frame

end
-- ==== Proof.KernelIdeal.MlpMiddle.lean ====
/-
  The body of the second pallas_call at a point with 0 < j < 55: it adds the point's partial product to the running
  sum the point before left, and leaves the output's staging buffer alone.
-/
import proofs.«120742_j45956150067864_1_alg».proof.Proof.KernelIdeal.MlpFirst

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with 0 < j < 55, on whole memrefs — the four inputs' at `x0 … x3`, the output's at contents `xi4` handed
    back untouched, the running sum's at `xs0` — the body runs to the continuation with the inputs' as they were and the
    running sum's buffer with the pieces `LS0` written. -/
noncomputable def mrunMiddle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) :
    Σ' (L4 : List (View.Piece (Elt F) S256x4096 .f32)), { LS0 : List (View.Piece (Elt F) S256x4096 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_gated_mlp_kernel i arg2 harg2 arg3 harg3 arg4 harg4 arg5 harg5 arg6 harg6 arg7 harg7) K } := by
  refine ⟨[], ?_, fun xi4 E K => ?run⟩
  case run =>
    simp only [cc1_gated_mlp_kernel_eq_skeleton]; unfold cc1_gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Frame

end
-- ==== Proof.KernelIdeal.MlpLast.lean ====
/-
  The body of the second pallas_call at a point with j = 55: it adds the point's partial product to the running sum
  the point before left, and copies the sum to the output's staging buffer.
-/
import proofs.«120742_j45956150067864_1_alg».proof.Proof.KernelIdeal.MlpMiddle

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j = 55, on whole memrefs — the four inputs' at `x0 … x3`, the output's at anything, the running sum's
    at `xs0` — the body runs to the continuation with the inputs' as they were, the output's buffer with the pieces `L4`
    written and the running sum's with `LS0`. -/
noncomputable def mrunLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) :
    Σ' (L4 : List (View.Piece (Elt F) S256x4096 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_gated_mlp_kernel i arg2 harg2 arg3 harg3 arg4 harg4 arg5 harg5 arg6 harg6 arg7 harg7) K } := by
  refine ⟨?_, ?_, fun E K => ?run⟩
  case run =>
    simp only [cc1_gated_mlp_kernel_eq_skeleton]; unfold cc1_gated_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Frame

end
-- ==== Proof.KernelIdeal.MlpRegion.lean ====
/-
  The second pallas_call as one pipeline region: what the output's staging buffer and the running sum hold after every
  point, the region's invariant, its proof data and the body obligation, at a parameter `V` (the unscoped buffers'
  contents when the region is entered).

  The running sum is carried from point to point: after point n it holds what that point's case leaves — computed, at a
  point with j > 0, from what point n − 1 left. The invariant before point n > 0 therefore names the running sum's
  contents after point n − 1; before the first point the buffer holds anything. The output's staging buffer is stored
  only at j = 55 and is idle (handed back as found, not written back) elsewhere.
-/
import proofs.«120742_j45956150067864_1_alg».proof.Proof.KernelIdeal.MlpLast

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At such a point nothing is stored into the output's staging buffer (the window is idle there and not written back):
    a placeholder nothing consults. -/
def mout_first (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) : Vec F S256x4096 .f32 :=
  mVO.read (Elt F) (mVO.writes (Elt F) mVO.junk (mrunFirst c i arg2 harg2 arg3 harg3 arg4 harg4 arg5 harg5 arg6 harg6 arg7 harg7 hc0 hc1 x0 x1 x2 x3).1)

/-- The pieces stored into the running sum's buffer tile it, so they cover it. -/
theorem mscover_first (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) (y : S256x4096.Idx) :
    ∃ pc ∈ (mrunFirst c i arg2 harg2 arg3 harg3 arg4 harg4 arg5 harg5 arg6 harg6 arg7 harg7 hc0 hc1 x0 x1 x2 x3).2.1, y ∈ pc.1.set :=
  View.cover_of_tiledL (mrunFirst c i arg2 harg2 arg3 harg3 arg4 harg4 arg5 harg5 arg6 harg6 arg7 harg7 hc0 hc1 x0 x1 x2 x3).2.1 S256x4096.size (by sl_kernel_rfl) y

/-- What the point leaves in the running sum's buffer: its pieces read back. -/
def msout_first (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) : Vec F S256x4096 .f32 :=
  mVS.read (Elt F) (mVS.writes (Elt F) mVS.junk (mrunFirst c i arg2 harg2 arg3 harg3 arg4 harg4 arg5 harg5 arg6 harg6 arg7 harg7 hc0 hc1 x0 x1 x2 x3).2.1)

/-- At such a point nothing is stored into the output's staging buffer (the window is idle there and not written back):
    a placeholder nothing consults. -/
def mout_middle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVO.read (Elt F) (mVO.writes (Elt F) mVO.junk (mrunMiddle c i arg2 harg2 arg3 harg3 arg4 harg4 arg5 harg5 arg6 harg6 arg7 harg7 hc0 hc1 x0 x1 x2 x3 xs0).1)

/-- The pieces stored into the running sum's buffer tile it, so they cover it. -/
theorem mscover_middle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) (y : S256x4096.Idx) :
    ∃ pc ∈ (mrunMiddle c i arg2 harg2 arg3 harg3 arg4 harg4 arg5 harg5 arg6 harg6 arg7 harg7 hc0 hc1 x0 x1 x2 x3 xs0).2.1, y ∈ pc.1.set :=
  View.cover_of_tiledL (mrunMiddle c i arg2 harg2 arg3 harg3 arg4 harg4 arg5 harg5 arg6 harg6 arg7 harg7 hc0 hc1 x0 x1 x2 x3 xs0).2.1 S256x4096.size (by sl_kernel_rfl) y

/-- What the point leaves in the running sum's buffer: its pieces read back. -/
def msout_middle (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVS.read (Elt F) (mVS.writes (Elt F) mVS.junk (mrunMiddle c i arg2 harg2 arg3 harg3 arg4 harg4 arg5 harg5 arg6 harg6 arg7 harg7 hc0 hc1 x0 x1 x2 x3 xs0).2.1)

/-- What the point leaves in the output's staging buffer: its pieces read back. -/
def mout_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVO.read (Elt F) (mVO.writes (Elt F) mVO.junk (mrunLast c i arg2 harg2 arg3 harg3 arg4 harg4 arg5 harg5 arg6 harg6 arg7 harg7 hc0 hc1 x0 x1 x2 x3 xs0).1)

/-- The pieces stored into the output's staging buffer tile it, so they cover it. -/
theorem mcover_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) (y : S256x4096.Idx) :
    ∃ pc ∈ (mrunLast c i arg2 harg2 arg3 harg3 arg4 harg4 arg5 harg5 arg6 harg6 arg7 harg7 hc0 hc1 x0 x1 x2 x3 xs0).1, y ∈ pc.1.set :=
  View.cover_of_tiledL (mrunLast c i arg2 harg2 arg3 harg3 arg4 harg4 arg5 harg5 arg6 harg6 arg7 harg7 hc0 hc1 x0 x1 x2 x3 xs0).1 S256x4096.size (by sl_kernel_rfl) y

/-- The pieces stored into the running sum's buffer tile it, so they cover it. -/
theorem mscover_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) (y : S256x4096.Idx) :
    ∃ pc ∈ (mrunLast c i arg2 harg2 arg3 harg3 arg4 harg4 arg5 harg5 arg6 harg6 arg7 harg7 hc0 hc1 x0 x1 x2 x3 xs0).2.1, y ∈ pc.1.set :=
  View.cover_of_tiledL (mrunLast c i arg2 harg2 arg3 harg3 arg4 harg4 arg5 harg5 arg6 harg6 arg7 harg7 hc0 hc1 x0 x1 x2 x3 xs0).2.1 S256x4096.size (by sl_kernel_rfl) y

/-- What the point leaves in the running sum's buffer: its pieces read back. -/
def msout_last (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) : Vec F S256x4096 .f32 :=
  mVS.read (Elt F) (mVS.writes (Elt F) mVS.junk (mrunLast c i arg2 harg2 arg3 harg3 arg4 harg4 arg5 harg5 arg6 harg6 arg7 harg7 hc0 hc1 x0 x1 x2 x3 xs0).2.1)

/-! ## Point by point -/

/-- What the output's staging buffer (first component) and the running sum (second) hold after the body at position `n`:
    the case the closed forms select there, run on the point's memrefs and input blocks, over what position `n − 1` left in
    the running sum. -/
def moutsAt (c : Dev nD) : (n : ℕ) → n < cfg1.N → Vec F S256x4096 .f32 × Vec F S256x4096 .f32
  | 0, hn => (mout_first c (grid1.coords ⟨0, hn⟩) (mms0 ⟨0, hn⟩) (mhs0 ⟨0, hn⟩) (mms1 ⟨0, hn⟩) (mhs1 ⟨0, hn⟩) (mms2 ⟨0, hn⟩) (mhs2 ⟨0, hn⟩) (mms3 ⟨0, hn⟩) (mhs3 ⟨0, hn⟩) (mms4 ⟨0, hn⟩) (mhs4 ⟨0, hn⟩) mscM (Memref.isWhole_whole _) ((hcondFirst ⟨0, hn⟩).mpr (Nat.zero_mod _)) (fun h => (fun h => by (try dsimp only at h); omega) ((hcondLast ⟨0, hn⟩).mp h)) (mblk V c 0 ⟨0, hn⟩) (mblk V c 1 ⟨0, hn⟩) (mblk V c 2 ⟨0, hn⟩) (mblk V c 3 ⟨0, hn⟩), msout_first c (grid1.coords ⟨0, hn⟩) (mms0 ⟨0, hn⟩) (mhs0 ⟨0, hn⟩) (mms1 ⟨0, hn⟩) (mhs1 ⟨0, hn⟩) (mms2 ⟨0, hn⟩) (mhs2 ⟨0, hn⟩) (mms3 ⟨0, hn⟩) (mhs3 ⟨0, hn⟩) (mms4 ⟨0, hn⟩) (mhs4 ⟨0, hn⟩) mscM (Memref.isWhole_whole _) ((hcondFirst ⟨0, hn⟩).mpr (Nat.zero_mod _)) (fun h => (fun h => by (try dsimp only at h); omega) ((hcondLast ⟨0, hn⟩).mp h)) (mblk V c 0 ⟨0, hn⟩) (mblk V c 1 ⟨0, hn⟩) (mblk V c 2 ⟨0, hn⟩) (mblk V c 3 ⟨0, hn⟩))
  | n + 1, hn =>
    if h0 : (n + 1) % 56 = 0 then
      if h1 : (n + 1) % 56 = 55 then
        False.elim (by omega)
      else
        (mout_first c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) ((hcondFirst ⟨n + 1, hn⟩).mpr h0) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩), msout_first c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) ((hcondFirst ⟨n + 1, hn⟩).mpr h0) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩))
    else
      if h1 : (n + 1) % 56 = 55 then
        (mout_last c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) ((hcondLast ⟨n + 1, hn⟩).mpr h1) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2, msout_last c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) ((hcondLast ⟨n + 1, hn⟩).mpr h1) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2)
      else
        (mout_middle c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2, msout_middle c (grid1.coords ⟨n + 1, hn⟩) (mms0 ⟨n + 1, hn⟩) (mhs0 ⟨n + 1, hn⟩) (mms1 ⟨n + 1, hn⟩) (mhs1 ⟨n + 1, hn⟩) (mms2 ⟨n + 1, hn⟩) (mhs2 ⟨n + 1, hn⟩) (mms3 ⟨n + 1, hn⟩) (mhs3 ⟨n + 1, hn⟩) (mms4 ⟨n + 1, hn⟩) (mhs4 ⟨n + 1, hn⟩) mscM (Memref.isWhole_whole _) (fun h => h0 ((hcondFirst ⟨n + 1, hn⟩).mp h)) (fun h => h1 ((hcondLast ⟨n + 1, hn⟩).mp h)) (mblk V c 0 ⟨n + 1, hn⟩) (mblk V c 1 ⟨n + 1, hn⟩) (mblk V c 2 ⟨n + 1, hn⟩) (mblk V c 3 ⟨n + 1, hn⟩) (moutsAt c n (Nat.lt_of_succ_lt hn)).2)

/-- At a point with j = 0: the first case's contents. -/
theorem moutsAt_first (c : Dev nD) (t : Fin cfg1.N) (h0 : t.val % 56 = 0) (h1 : ¬t.val % 56 = 55) :
    moutsAt V c t.val t.isLt = (mout_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t), msout_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)) := by
  obtain ⟨n, hn⟩ := t
  cases n with
  | zero => exact rfl
  | succ n => exact (dif_pos h0).trans ((dif_neg h1).trans rfl)

/-- At a point with 0 < j < 55: the middle case's contents, over what the point before left. -/
theorem moutsAt_middle (c : Dev nD) (t : Fin cfg1.N) (h0 : ¬t.val % 56 = 0) (h1 : ¬t.val % 56 = 55) :
    moutsAt V c t.val t.isLt = (mout_middle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) (moutsAt V c (t.val - 1) (Nat.lt_of_le_of_lt (Nat.sub_le _ _) t.isLt)).2, msout_middle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) (moutsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 55: the last case's contents, over what the point before left. -/
theorem moutsAt_last (c : Dev nD) (t : Fin cfg1.N) (h0 : ¬t.val % 56 = 0) (h1 : t.val % 56 = 55) :
    moutsAt V c t.val t.isLt = (mout_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2, msout_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at `n = 0` the scoped rest and the generator register at some state; afterwards the same with
    the running sum's buffer at what position `n − 1` left in it. -/
def mPhi (c : Dev nD) : (n : ℕ) → n ≤ cfg1.N → sProp 𝕄
  | 0, _ => Pipeline.ΦA spec1 c
  | n + 1, hn => iprop(mscoped c (owns (c : Thread nD τ) mscM fullShare ((moutsAt V c n hn).2)) ∗ (∃ r, prngReg c r))

theorem mPhi_zero (c : Dev nD) (n : ℕ) (h : n ≤ cfg1.N) (hz : n = 0) : mPhi V c n h = Pipeline.ΦA spec1 c := by
  subst hz; rfl

theorem mPhi_succ (c : Dev nD) (n : ℕ) (hn : n < cfg1.N) :
    mPhi V c (n + 1) hn = iprop(mscoped c (owns (c : Thread nD τ) mscM fullShare ((moutsAt V c n hn).2)) ∗ (∃ r, prngReg c r)) := rfl

theorem mPhi_pos (c : Dev nD) (n : ℕ) (h : n ≤ cfg1.N) (hz : n ≠ 0) :
    mPhi V c n h = iprop(mscoped c (owns (c : Thread nD τ) mscM fullShare ((moutsAt V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `moutsAt`'s first component; the invariant `mPhi`; nothing owed; full shares. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => mblk V c 3 t
    | ⟨4, _⟩ => (moutsAt V c t.val t.isLt).1
  Φ t := mPhi V c t.val (Nat.le_of_lt_succ t.isLt)
  q _ := fullShare
  owed _ := 0

theorem mA_eq (c : Dev nD) (w : Fin cfg1.W) : (mdat V c).A w = V c (Pipeline.arrRef spec1 w) := by
  dsimp only [mdat]

theorem mPhi_castSucc (c : Dev nD) (t : Fin cfg1.N) :
    (mdat V c).Φ t.castSucc = mPhi V c t.val (Nat.le_of_lt t.isLt) := by
  dsimp only [mdat]; simp only [Fin.coe_castSucc]

theorem mafter0 (c : Dev nD) (t : Fin cfg1.N) : (mdat V c).after 0 t = mblk V c 0 t := by dsimp only [mdat]
theorem mafter1 (c : Dev nD) (t : Fin cfg1.N) : (mdat V c).after 1 t = mblk V c 1 t := by dsimp only [mdat]
theorem mafter2 (c : Dev nD) (t : Fin cfg1.N) : (mdat V c).after 2 t = mblk V c 2 t := by dsimp only [mdat]
theorem mafter3 (c : Dev nD) (t : Fin cfg1.N) : (mdat V c).after 3 t = mblk V c 3 t := by dsimp only [mdat]
theorem mafter4 (c : Dev nD) (t : Fin cfg1.N) : (mdat V c).after 4 t = (moutsAt V c t.val t.isLt).1 := by dsimp only [mdat]

theorem mbefore0 (c : Dev nD) (t : Fin cfg1.N) (d) : (mdat V c).before 0 t d = mblk V c 0 t :=
  mbefore0_of V (mdat V c) (mA_eq V c 0) (mafter0 V c) t d
theorem mbefore1 (c : Dev nD) (t : Fin cfg1.N) (d) : (mdat V c).before 1 t d = mblk V c 1 t :=
  mbefore1_of V (mdat V c) (mA_eq V c 1) (mafter1 V c) t d
theorem mbefore2 (c : Dev nD) (t : Fin cfg1.N) (d) : (mdat V c).before 2 t d = mblk V c 2 t :=
  mbefore2_of V (mdat V c) (mA_eq V c 2) (mafter2 V c) t d
theorem mbefore3 (c : Dev nD) (t : Fin cfg1.N) (d) : (mdat V c).before 3 t d = mblk V c 3 t :=
  mbefore3_of V (mdat V c) (mA_eq V c 3) (mafter3 V c) t d

/-! ## The body obligation -/

/-- What the body is called with at point `t`, the windows one by one, -/
def mbodyPre (c : Dev nD) (t : Fin cfg1.N) : sProp 𝕄 :=
  iprop((mdat V c).Φ t.castSucc ∗ (mdat V c).owesAt () t.castSucc
    ∗ (∃ d, owns (c : Thread nD τ) (mms0 t) fullShare ((mdat V c).before 0 t d))
    ∗ (∃ d, owns (c : Thread nD τ) (mms1 t) fullShare ((mdat V c).before 1 t d))
    ∗ (∃ d, owns (c : Thread nD τ) (mms2 t) fullShare ((mdat V c).before 2 t d))
    ∗ (∃ d, owns (c : Thread nD τ) (mms3 t) fullShare ((mdat V c).before 3 t d))
    ∗ (∃ d, owns (c : Thread nD τ) (mms4 t) fullShare ((mdat V c).before 4 t d)))

/-- and what it returns. -/
def mbodyPost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t
    ∗ (mdat V c).leavesExact 4 t)

set_option maxHeartbeats 4800000 in
/-- The body at any point. The inputs' memrefs hold their blocks; the closed forms say which case the point is in; the
    invariant hands the body the running sum at what the point before left (at anything, at the very first point) and takes
    it back at this point's contents; where the output window is idle its buffer goes back as found; nothing is owed. -/
theorem msound_body (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore0, mbefore1, mbefore2, mbefore3]
  rw [show (mdat V c).owesAt () t.succ = (mdat V c).owesAt () t.castSucc from rfl]
  rw [show (mdat V c).Φ t.succ = mPhi V c (t.val + 1) t.isLt from rfl, mPhi_succ]
  have hN : t.val < 448 := lt_of_lt_of_eq t.isLt (show cfg1.N = 448 from N_1)
  by_cases h0 : t.val % 56 = 0
  · have h1 : ¬t.val % 56 = 55 := by omega
    rw [show (mdat V c).leavesExact 0 t = owns (c : Thread nD τ) (mms0 t) fullShare ((mdat V c).after 0 t) from by
      unfold Dat.leavesExact; rw [mlive0 t], mafter0]
    rw [show (mdat V c).leavesExact 1 t = owns (c : Thread nD τ) (mms1 t) fullShare ((mdat V c).after 1 t) from by
      unfold Dat.leavesExact; rw [mlive1 t], mafter1]
    rw [show (mdat V c).leavesExact 2 t = owns (c : Thread nD τ) (mms2 t) fullShare ((mdat V c).after 2 t) from by
      unfold Dat.leavesExact; rw [mlive2 t], mafter2]
    rw [show (mdat V c).leavesExact 3 t = owns (c : Thread nD τ) (mms3 t) fullShare ((mdat V c).after 3 t) from by
      unfold Dat.leavesExact; rw [mlive3 t], mafter3]
    rw [Dat.leavesExact_idle (mdat V c) 4 t (midle4 t (fun h => h1 ((hcondLast t).mp h))) (mnoFlush4 t (fun h => h1 ((hcondLast t).mp h)))]
    rw [moutsAt_first V c t h0 h1]
    unfold msout_first; (try dsimp only)
    by_cases hz : t.val = 0
    · rw [mPhi_castSucc V c t, mPhi_zero V c _ _ hz, mPhiA_eq]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunFirst c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t))
        iexact Hg
      isplitl [Ho]; · iexact Ho
      isplitl [H0]; · iexact H0
      isplitl [H1]; · iexact H1
      isplitl [H2]; · iexact H2
      isplitl [H3]; · iexact H3
      iexists _; iexact H4
    · rw [mPhi_castSucc V c t, mPhi_pos V c _ _ hz]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunFirst c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_first c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t))
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 56 = 55
    ·
      rw [show (mdat V c).leavesExact 0 t = owns (c : Thread nD τ) (mms0 t) fullShare ((mdat V c).after 0 t) from by
        unfold Dat.leavesExact; rw [mlive0 t], mafter0]
      rw [show (mdat V c).leavesExact 1 t = owns (c : Thread nD τ) (mms1 t) fullShare ((mdat V c).after 1 t) from by
        unfold Dat.leavesExact; rw [mlive1 t], mafter1]
      rw [show (mdat V c).leavesExact 2 t = owns (c : Thread nD τ) (mms2 t) fullShare ((mdat V c).after 2 t) from by
        unfold Dat.leavesExact; rw [mlive2 t], mafter2]
      rw [show (mdat V c).leavesExact 3 t = owns (c : Thread nD τ) (mms3 t) fullShare ((mdat V c).after 3 t) from by
        unfold Dat.leavesExact; rw [mlive3 t], mafter3]
      rw [show (mdat V c).leavesExact 4 t = owns (c : Thread nD τ) (mms4 t) fullShare ((mdat V c).after 4 t) from by
        unfold Dat.leavesExact; rw [mlive4 t ((hcondLast t).mpr h1)], mafter4]
      rw [moutsAt_last V c t h0 h1]
      unfold mout_last msout_last; (try dsimp only)
      rw [mPhi_castSucc V c t, mPhi_pos V c _ _ hz]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunLast c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (mcover_last c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) _)
    ·
      rw [show (mdat V c).leavesExact 0 t = owns (c : Thread nD τ) (mms0 t) fullShare ((mdat V c).after 0 t) from by
        unfold Dat.leavesExact; rw [mlive0 t], mafter0]
      rw [show (mdat V c).leavesExact 1 t = owns (c : Thread nD τ) (mms1 t) fullShare ((mdat V c).after 1 t) from by
        unfold Dat.leavesExact; rw [mlive1 t], mafter1]
      rw [show (mdat V c).leavesExact 2 t = owns (c : Thread nD τ) (mms2 t) fullShare ((mdat V c).after 2 t) from by
        unfold Dat.leavesExact; rw [mlive2 t], mafter2]
      rw [show (mdat V c).leavesExact 3 t = owns (c : Thread nD τ) (mms3 t) fullShare ((mdat V c).after 3 t) from by
        unfold Dat.leavesExact; rw [mlive3 t], mafter3]
      rw [Dat.leavesExact_idle (mdat V c) 4 t (midle4 t (fun h => h1 ((hcondLast t).mp h))) (mnoFlush4 t (fun h => h1 ((hcondLast t).mp h)))]
      rw [moutsAt_middle V c t h0 h1]
      unfold msout_middle; (try dsimp only)
      rw [mPhi_castSucc V c t, mPhi_pos V c _ _ hz]
      unfold mscoped
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((mrunMiddle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA HB HC HD HE HS0 Hg]
      · isplitl [HA HB HC HD HE HS0]
        · isplitl [HA]; · iexact HA
          isplitl [HB]; · iexact HB
          isplitl [HC]; · iexact HC
          isplitl [HD]; · iexact HD
          isplitl [HE]; · iexact HE
          unfold owns; iexists _; isplitr
          swap; · iexact HS0
          ipureintro; exact View.read_writes_of_cover _ _ _ _ _ (mscover_middle c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem mbody_obligation (c : Dev nD) : BodyObligation (mdat (F := F) V c) (defs₀ (F := F)) Variants.none () Set.univ := fun t => by
  rw [bigSep_W1, bigSep_W1]
  exact msound_body V c t

/-! ## The invariant's two ends -/

/-- What the region is entered with is the invariant before the first point. -/
theorem mhin (c : Dev nD) : Pipeline.ΦA spec1 c ⊢ (mdat V c).Φ 0 := by
  rw [show (mdat V c).Φ 0 = mPhi V c 0 (Nat.zero_le _) from rfl, mPhi_zero V c 0 _ rfl]
  try exact Idealize.SL.BI.Entails.refl _

/-- After any point the invariant gives the constant one back: the running sum's named contents are forgotten. -/
theorem mPhi_out (c : Dev nD) (t : Fin (cfg1.N + 1)) (ht : t.val ≠ 0) : (mdat V c).Φ t ⊢ Pipeline.ΦA spec1 c := by
  rw [show (mdat V c).Φ t = mPhi V c t.val (Nat.le_of_lt_succ t.isLt) from rfl, mPhi_pos V c _ _ ht, mPhiA_eq]
  unfold mscoped
  iintro ⟨⟨HA, HB, HC, HD, HE, HS0⟩, Hg⟩
  isplitl [HA HB HC HD HE HS0]
  · isplitl [HA]; · iexact HA
    isplitl [HB]; · iexact HB
    isplitl [HC]; · iexact HC
    isplitl [HD]; · iexact HD
    isplitl [HE]; · iexact HE
    iexists _; iexact HS0
  iexact Hg

/-- The same after the last point. -/
theorem mhout (c : Dev nD) : (mdat V c).Φ (Fin.last cfg1.N) ⊢ Pipeline.ΦA spec1 c :=
  mPhi_out V c _ (by rw [Fin.val_last]; have : cfg1.N = 448 := N_1; omega)

end Cert.KernelIdeal.Frame

end
-- ==== Proof.KernelIdeal.ProgramRun.lean ====
/-
  The program's run from launch to return: three stretches of host operations around the two pipeline regions.

  The contents of the core's unscoped buffers at each boundary are a fold from the launch memory: a host stretch
  applies its operations; a region leaves each of its windows' arrays at what its write-backs fold to and every other
  buffer as entered. The thread state carried through is "every unscoped buffer at the boundary's contents, the generator
  register at some state, nothing owed". Every weakly fair execution terminates, and in every final state EVERY unscoped
  buffer holds the last fold's contents — the arguments therefore what they held at launch, since no stretch writes one
  and no region has one among its windows' arrays.
-/
import proofs.«120742_j45956150067864_1_alg».proof.Proof.KernelIdeal.NormRegion
import proofs.«120742_j45956150067864_1_alg».proof.Proof.KernelIdeal.MlpRegion
import proofs.«120742_j45956150067864_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the two reshapes): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (ndat (V1 m ρ) c).arrAt w cfg0.N
theorem W2_arr (c : Dev nD) (w : Fin cfg0.W) :
    W2 m ρ c (Proc.devRef .tc (Pipeline.arrRef spec0 w)) = (ndat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (ndat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the three weight conversions): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (mdat (V3 m ρ) c).arrAt w cfg1.N
theorem W4_arr (c : Dev nD) (w : Fin cfg1.W) :
    W4 m ρ c (Proc.devRef .tc (Pipeline.arrRef spec1 w)) = (mdat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (mdat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch (the result's reshape): what the program returns with. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => ndat (V1 m ρ) c
  | ⟨1, _⟩ => fun c => mdat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: its arrays split out of the unscoped buffers at entry and put back at the exit contents; the generator register into the constant invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (nbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state, the same way; its invariant starts as the constant one and gives it back after the last point, the running sum's named contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (mdat (V3 m ρ) c).Φ 0 from rfl]
    have h := mhin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (mdat (V3 m ρ) c).Φ (Fin.last cfg1.N) from rfl]
    have h := mhout (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Frame

end
-- ==== Proof.Spec.lean ====
/-
  What both programs compute, as one function of the five argument arrays over the extended reals.

  With x : [1, 2048, 4096], w : [4096], the gate and up weights : [14336, 4096] and the down weights : [4096, 14336]:
    normed s k = x[0,s,k] · rsqrt( (Σ_k' x[0,s,k']²) / 4096 + ε ) · w[k]
    gate   s i = Σ_k normed s k · Wg[i,k]            (and the same with the up weights)
    act    s i = gate s i · logistic (gate s i) · up s i
    result [0,s,n] = Σ_{i < 14336} act s i · Wd[n,i].
  The reference sums the last line in one piece; the kernel sums it as 56 consecutive blocks of 256, block after block.
  The two agree because addition of extended reals is commutative and associative: no finiteness is needed.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev SX : Shape := ⟨3, ![1, 2048, 4096]⟩
abbrev SW : Shape := ⟨1, ![4096]⟩
abbrev SG : Shape := ⟨2, ![14336, 4096]⟩
abbrev SD : Shape := ⟨2, ![4096, 14336]⟩

/-- The row length 4096 as the programs' literal word. -/
abbrev cLen : EReal := Ideal.ofBits .f32 0x45800000#32
/-- The normalisation's epsilon as the programs' literal word. -/
abbrev cEps : EReal := Ideal.ofBits .f32 0x3727C5AC#32

/-- A row's normaliser: rsqrt of its mean square plus epsilon. -/
def rowScale (x : FVec Ideal SX .f32) (s : Fin 2048) : EReal :=
  Ideal.rsqrt (Ideal.div (∑ k' : Fin 4096, x (ix3 0 s k') * x (ix3 0 s k')) cLen + cEps)

/-- The normalised, weighted row entry. -/
def normed (x : FVec Ideal SX .f32) (w : FVec Ideal SW .f32) (s : Fin 2048) (k : Fin 4096) : EReal :=
  x (ix3 0 s k) * rowScale x s * w (ix1 k)

/-- A projection of the normalised row onto row `i` of a [14336, 4096] weight array. -/
def proj (x : FVec Ideal SX .f32) (w : FVec Ideal SW .f32) (W : FVec Ideal SG .f32) (s : Fin 2048) (i : Fin 14336) : EReal :=
  ∑ k : Fin 4096, normed x w s k * W (ix2 i k)

/-- The gated activation. -/
def act (x : FVec Ideal SX .f32) (w : FVec Ideal SW .f32) (Wg Wu : FVec Ideal SG .f32) (s : Fin 2048) (i : Fin 14336) : EReal :=
  proj x w Wg s i * Ideal.logistic (proj x w Wg s i) * proj x w Wu s i

/-- Inner index 256·j + i'. -/
def inner (j : Fin 56) (i' : Fin 256) : Fin 14336 := ⟨256 * j.val + i'.val, by have := j.isLt; have := i'.isLt; omega⟩

/-- THE RESULT, summed in one piece. -/
def G (x : FVec Ideal SX .f32) (w : FVec Ideal SW .f32) (Wg Wu : FVec Ideal SG .f32) (Wd : FVec Ideal SD .f32) : FVec Ideal SX .f32 :=
  fun idx => ∑ i : Fin 14336, act x w Wg Wu (idx 1) i * Wd (ix2 (idx 2) i)

/-- The result summed block after block: 56 blocks of 256. -/
def Gblocks (x : FVec Ideal SX .f32) (w : FVec Ideal SW .f32) (Wg Wu : FVec Ideal SG .f32) (Wd : FVec Ideal SD .f32) : FVec Ideal SX .f32 :=
  fun idx => ∑ j : Fin 56, ∑ i' : Fin 256, act x w Wg Wu (idx 1) (inner j i') * Wd (ix2 (idx 2) (inner j i'))

/-- A sum over 14336 = 56 · 256 indices is the sum of its 56 consecutive blocks of 256. -/
theorem sum_blocks {M : Type*} [AddCommMonoid M] (f : Fin 14336 → M) :
    ∑ i : Fin 14336, f i = ∑ j : Fin 56, ∑ i' : Fin 256, f (inner j i') := by
  -- Reindex along the bijection Fin 56 × Fin 256 ≃ Fin (56 · 256), (j, i') ↦ i' + 256 · j.
  have h : ∑ i : Fin (56 * 256), f i = ∑ p : Fin 56 × Fin 256, f (finProdFinEquiv p) :=
    (Equiv.sum_comp (finProdFinEquiv (m := 56) (n := 256)) (fun i : Fin (56 * 256) => f i)).symm
  -- A sum over the product is the iterated sum.
  rw [Fintype.sum_prod_type] at h
  refine h.trans ?_
  refine Finset.sum_congr rfl fun j _ => Finset.sum_congr rfl fun i' _ => ?_
  -- The two indices have the same value: i' + 256 · j = 256 · j + i'.
  refine congrArg f (Fin.ext ?_)
  show (i' : ℕ) + 256 * (j : ℕ) = 256 * (j : ℕ) + (i' : ℕ)
  omega

theorem G_eq_blocks (x : FVec Ideal SX .f32) (w : FVec Ideal SW .f32) (Wg Wu : FVec Ideal SG .f32) (Wd : FVec Ideal SD .f32) :
    G x w Wg Wu Wd = Gblocks x w Wg Wu Wd :=
  funext fun idx => sum_blocks _

end Cert.Spec

end
-- ==== Proof.KernelIdeal.NormValue.lean ====
/-
  The first kernel's stored block, read at an entry: entry (r, k) of the 512 × 4096 block the body stores is
  x[r,k] · rsqrt( (Σ_k' x[r,k']²) / 4096 + ε ) · w[0,k], where x is the loaded block of rows and w the loaded weight row.
-/
import proofs.«120742_j45956150067864_1_alg».proof.Proof.KernelIdeal.NormRegion
import proofs.«120742_j45956150067864_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

/-- The zero offsets of a whole block are the constant zero function. -/
theorem norm_zero_offsets : (![0, 0] : Fin 2 → Nat) = fun _ => 0 := funext fun a => by fin_cases a <;> rfl

/-- An `[a]` array cast to the column `[a, 1]` reads, at `(i, u)`, the operand at `i`: the two row-major positions are
    `i` and `i · 1 + u` with `u = 0`. -/
theorem norm_column_cast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem norm_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reciprocal square root at an index is the extended reals' one of the element. -/
theorem norm_rsqrt_apply {s : Shape} {φ : FTy} (a : FVec Ideal s φ) (i : s.Idx) : rsqrt a i = Ideal.rsqrt (a i) := rfl

/-- The sum along the lanes of a 512 × 4096 block, read at row `r`, is the sum of the row's 4096 entries: the index
    inserted over row `r` with lane `k'` is `(r, k')`. -/
theorem norm_lane_sum_apply (v : FVec Ideal S512x4096 .f32) (h : S512x4096.Reduces [1] S512) (hφ : FKind.Formats .f32)
    (hacc : (0x00000000#32 : BitVec 32) = 0x00000000#32) (r : Fin 512) :
    multiReduction .add [1] S512 v 0x00000000#32 h hφ hacc (ix1 r) = ∑ k' : Fin 4096, v (ix2 r k') := by
  refine (Ideal.multiReduction_add_single v 0x00000000#32 h hφ hacc (ix1 r)).trans ?_
  refine Finset.sum_congr rfl fun k' _ => congrArg v ?_
  funext a
  match a with
  | ⟨0, _⟩ => rfl
  | ⟨1, _⟩ => rfl

/-- The stored block at entry (r, k). -/
theorem nout_apply (x0 : S512x4096.Idx → EReal) (x1 : S1x4096.Idx → EReal) (r : Fin 512) (k : Fin 4096) :
    (nout (F := Ideal) x0 x1 : S512x4096.Idx → EReal) (ix2 r k)
      = x0 (ix2 r k) * Ideal.rsqrt (Ideal.div (∑ k' : Fin 4096, x0 (ix2 r k') * x0 (ix2 r k')) Cert.Spec.cLen + Cert.Spec.cEps) * x1 (ix2 0 k) := by
  -- the one whole-block store leaves its payload, and the two whole-block loads read the blocks themselves
  unfold nout
  rw [View.canon_unit_zero norm_zero_offsets]
  simp only [View.ld_unit_zero (S := S512x4096) norm_zero_offsets, View.ld_unit_zero (S := S1x4096) norm_zero_offsets]
  unfold k0_pay1
  -- the format change is the identity; the two outer products are pointwise
  rw [truncf_apply, mulf_apply, mulf_apply]
  -- the casts to the same shape are the identity
  rw [shapeCast_self, shapeCast_self]
  -- the weight row is read at (0, k), the per-row factor at (r, 0)
  rw [broadcastTo_1b_ab_apply, norm_column_broadcast_apply]
  -- the per-row factor is rsqrt (mean square + ε), pointwise on the column
  rw [norm_rsqrt_apply, addf_apply, divf_apply, broadcast_apply, broadcast_apply]
  -- the column is the vector of lane sums, and the lane sum at row r is the sum over the row
  rw [norm_column_cast_apply]
  rw [norm_lane_sum_apply]
  simp only [mulf_apply]
  rfl

end Cert.KernelIdeal.Val

end
-- ==== Proof.KernelIdeal.NormArray.lean ====
/-
  What the first region leaves in its output array, entry by entry, in terms of the arrays it was entered with:
  entry (s, k) of the 2048 × 4096 output is x[s,k] · rsqrt( (Σ_k' x[s,k']²) / 4096 + ε ) · w[0,k], x the 2048 × 4096 input
  array and w the 1 × 4096 weight row. Row s lies in the block of rows the grid point s / 512 writes back, and the four
  blocks tile the array.
-/
import proofs.«120742_j45956150067864_1_alg».proof.Proof.KernelIdeal.NormValue
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

variable (V : (c : Dev nD) → (b : Ref sig .tc) → Buf (Elt Ideal) ((c : Thread nD τ).loc b))

/-! ## The whole-array function and the blocks' index maps -/

/-- The normalised rows as ONE function of the input array x and the weight row w: entry i is
    x[i] · rsqrt( (Σ_k' x[i₀,k']²) / 4096 + ε ) · w[0,i₁]. -/
def normFn (x : S2048x4096.Idx → EReal) (w : S1x4096.Idx → EReal) : S2048x4096.Idx → EReal := fun i =>
  x i * Ideal.rsqrt (Ideal.div (∑ k' : Fin 4096, x (ix2 (⟨(i 0).val, idx2_lt0 i⟩ : Fin 2048) k') * x (ix2 (⟨(i 0).val, idx2_lt0 i⟩ : Fin 2048) k')) Cert.Spec.cLen + Cert.Spec.cEps)
    * w (ix2 (0 : Fin 1) (⟨(i 1).val, idx2_lt1 i⟩ : Fin 4096))

/-- The function at entry (s, k). -/
theorem normFn_apply (x : S2048x4096.Idx → EReal) (w : S1x4096.Idx → EReal) (s : Fin 2048) (k : Fin 4096) :
    normFn x w (ix2 s k)
      = x (ix2 s k) * Ideal.rsqrt (Ideal.div (∑ k' : Fin 4096, x (ix2 s k') * x (ix2 s k')) Cert.Spec.cLen + Cert.Spec.cEps) * w (ix2 0 k) := rfl

/-- The three windows' block indices at every grid point: the rows' and the output's block index is (t, 0), the weight
    row's (0, 0). -/
theorem norm_blk_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks as parts of their arrays -/

/-- The rows' block at point t holds rows 512·t … 512·t + 511 of the input array: a block's coordinate on an axis is the
    block index times the block's extent plus the coordinate inside the block. -/
theorem norm_rows_blk (c : Dev nD) (t : Fin cfg0.N) (y : S512x4096.Idx) (i : S2048x4096.Idx)
    (hi0 : (i 0).val = t.val * 512 + (y 0).val) (hi1 : (i 1).val = (y 1).val) :
    (nblk V c 0 t : S512x4096.Idx → EReal) y = V c main_v0 i := by
  obtain ⟨e0, e1, -⟩ := norm_blk_indices t
  show V c main_v0 (((cfg0.win 0).blk t).view.emb y) = V c main_v0 i
  refine congrArg _ ?_
  funext a
  apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The weight row's block at every point is the whole weight row. -/
theorem norm_weight_blk (c : Dev nD) (t : Fin cfg0.N) (y : S1x4096.Idx) :
    (nblk V c 1 t : S1x4096.Idx → EReal) y = V c main_v1 y := by
  obtain ⟨-, -, e2, e3, -⟩ := norm_blk_indices t
  show V c main_v1 (((cfg0.win 1).blk t).view.emb y) = V c main_v1 y
  refine congrArg _ ?_
  funext a
  apply Fin.ext
  match a with
  | ⟨0, _⟩ => show win0_1.index t (0 : Fin 2) * 1 + 1 * (y 0).val = (y 0).val; omega
  | ⟨1, _⟩ => show win0_1.index t (1 : Fin 2) * 4096 + 1 * (y 1).val = (y 1).val; omega

/-! ## What a point writes back -/

/-- The stored block of a block of rows of x (block index T on the rows' axis) and of the weight row w is, entry by
    entry, the function of x and w at the entry's place in the array: the sum of squares of the block's row is the sum of
    squares of the array's row it is. -/
theorem norm_blk_entry (x : S2048x4096.Idx → EReal) (w : S1x4096.Idx → EReal) (x0 : S512x4096.Idx → EReal) (x1 : S1x4096.Idx → EReal) (T : Nat)
    (h0 : ∀ (y : S512x4096.Idx) (i : S2048x4096.Idx), (i 0).val = T * 512 + (y 0).val → (i 1).val = (y 1).val → x0 y = x i)
    (h1 : ∀ y : S1x4096.Idx, x1 y = w y)
    (y : S512x4096.Idx) (i : S2048x4096.Idx) (hi0 : (i 0).val = T * 512 + (y 0).val) (hi1 : (i 1).val = (y 1).val) :
    (nout (F := Ideal) x0 x1 : S512x4096.Idx → EReal) y = normFn x w i := by
  obtain ⟨r, k, rfl⟩ : ∃ (r : Fin 512) (k : Fin 4096), y = ix2 r k := ⟨y 0, y 1, eq_ix2 y⟩
  obtain ⟨s, k2, rfl⟩ : ∃ (s : Fin 2048) (k2 : Fin 4096), i = ix2 s k2 := ⟨i 0, i 1, eq_ix2 i⟩
  obtain rfl : k = k2 := (Fin.ext hi1).symm
  rw [nout_apply, normFn_apply, h0 (ix2 r k) (ix2 s k) hi0 rfl, h1]
  have hrow : ∀ k' : Fin 4096, x0 (ix2 r k') = x (ix2 s k') := fun k' => h0 (ix2 r k') (ix2 s k') hi0 rfl
  simp only [hrow]

/-- WHAT POINT t WRITES BACK is block t of the function of the two arrays as the region finds them. -/
theorem norm_flushed_eq (c : Dev nD) (t : Fin cfg0.N) :
    (ndat V c).flushed 2 t = ((cfg0.win 2).blk t).view.read (Elt Ideal) (normFn (V c main_v0) (V c main_v1)) := by
  show (cfg0.win 2).cut (grid0.coords t) ((ndat V c).after 2 t) = _
  rw [nafter_out]
  obtain ⟨-, -, -, -, e4, e5⟩ := norm_blk_indices t
  funext j
  refine norm_blk_entry (V c main_v0) (V c main_v1) (nblk V c 0 t) (nblk V c 1 t) t.val
    (fun y i hi0 hi1 => norm_rows_blk V c t y i hi0 hi1) (fun y => norm_weight_blk V c t y) j (((cfg0.win 2).blk t).view.emb j) ?_ ?_
  · show win0_2.index t (0 : Fin 2) * 512 + 1 * (j 0).val = t.val * 512 + (j 0).val; omega
  · show win0_2.index t (1 : Fin 2) * 4096 + 1 * (j 1).val = (j 1).val; omega

/-! ## The blocks tile the array -/

/-- An index of the array is in point t's block iff each coordinate is in the block's range on its axis. -/
theorem norm_mem_blk (t : Fin cfg0.N) (i : S2048x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v2).slice (win0_2.rect t)).set ↔ _
  rw [View.set_slice_whole, Rect.mem_set_unit]
  exact Iff.rfl

/-- Row s of the array lies in the block of the point s / 512, and every point writes its block back. -/
theorem norm_covered (i : S2048x4096.Idx) :
    ∃ t : Fin cfg0.N, (cfg0.win 2).flush t = true ∧ i ∈ ((cfg0.win 2).blk t).view.set := by
  have h0 : (i 0).val < 2048 := idx2_lt0 i
  have h1 : (i 1).val < 4096 := idx2_lt1 i
  have hN : cfg0.N = 4 := N_0
  obtain ⟨t, ht⟩ : ∃ t : Fin cfg0.N, t.val = (i 0).val / 512 := ⟨⟨(i 0).val / 512, by rw [hN]; omega⟩, rfl⟩
  obtain ⟨-, -, -, -, e4, e5⟩ := norm_blk_indices t
  refine ⟨t, flush0_2 t, ?_⟩
  rw [norm_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE ARRAY after the region: the function of the two arrays as the region finds them. -/
theorem norm_array_eq (c : Dev nD) : (ndat V c).arrAt 2 cfg0.N = normFn (V c main_v0) (V c main_v1) :=
  (ndat V c).arrAt_eq_of_cover 2 (normFn (V c main_v0) (V c main_v1)) (fun t _ => norm_flushed_eq V c t) norm_covered

/-- The 2048 × 4096 input array as the first region finds it. -/
abbrev rowsArr (c : Dev nD) : S2048x4096.Idx → EReal := V c main_v0
/-- The 1 × 4096 weight row as the first region finds it. -/
abbrev weightArr (c : Dev nD) : S1x4096.Idx → EReal := V c main_v1
/-- The first region's 2048 × 4096 output array after the region. -/
abbrev normedArr (c : Dev nD) : S2048x4096.Idx → EReal := (ndat V c).arrAt 2 cfg0.N

/-- The first region's output array after the region, at entry (s, k). -/
theorem norm_array (c : Dev nD) (s : Fin 2048) (k : Fin 4096) :
    normedArr V c (ix2 s k)
      = rowsArr V c (ix2 s k)
        * Ideal.rsqrt (Ideal.div (∑ k' : Fin 4096, rowsArr V c (ix2 s k') * rowsArr V c (ix2 s k')) Cert.Spec.cLen + Cert.Spec.cEps)
        * weightArr V c (ix2 0 k) := by
  show (ndat V c).arrAt 2 cfg0.N (ix2 s k) = _
  rw [norm_array_eq]
  exact normFn_apply _ _ s k

end Cert.KernelIdeal.Val

end
-- ==== Proof.KernelIdeal.MlpPayload.lean ====
/-
  The second kernel's arithmetic at one grid point, read at an entry. With h the 256 × 4096 block of normalised rows,
  Wg, Wu the 256 × 4096 blocks of gate and up weights and Wd the 4096 × 256 block of down weights, the value the body
  stores into the running sum is, at entry (r, n),
    acc[r,n] + Σ_{i' < 256} ( g · logistic g · u ) · Wd[n,i'],   g = Σ_k h[r,k]·Wg[i',k],  u = Σ_k h[r,k]·Wu[i',k];
  and the value it resets the running sum to is 0 everywhere.
-/
import proofs.«120742_j45956150067864_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- The left operand's index of the contraction, on its free axis: the output's row. -/
theorem lhs_mm1_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
/-- The left operand's index on its contracted axis: the contraction position. -/
theorem lhs_mm1_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
/-- The right operand's index on its free axis: the output's column. -/
theorem rhs_mm1_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
/-- The right operand's index on its contracted axis: the contraction position. -/
theorem rhs_mm1_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- A block product that contracts the second axis of both operands, into the zero accumulator, at entry (p, q): the sum over the 4096 contraction positions. -/
theorem mm1_apply (a : S256x4096.Idx → EReal) (b : S256x4096.Idx → EReal) (p : Fin 256) (q : Fin 256) :
    (matmul (F := Ideal) (φ₁ := .bf16) (φ₂ := .bf16) dot_S256x4096_S256x4096_S256x256_1_1_0_0_n_n none a b (constant S256x256 .f32 0x00000000#32) : S256x256.Idx → EReal) (ix2 p q)
      = ∑ k : Fin 4096, a (ix2 p k) * b (ix2 q k) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k := funext fun c => Fin.ext (by
    match c with
    | ⟨0, _⟩ => exact lhs_mm1_0 _ _
    | ⟨1, _⟩ => exact (lhs_mm1_1 _ _).trans hk)
  have er : dot_S256x4096_S256x4096_S256x256_1_1_0_0_n_n.rhsIdx (ix2 p q) ((contrEquiv1 dot_S256x4096_S256x4096_S256x256_1_1_0_0_n_n 4096 rfl rfl).symm k) = ix2 q k := funext fun c => Fin.ext (by
    match c with
    | ⟨0, _⟩ => exact rhs_mm1_0 _ _
    | ⟨1, _⟩ => exact (rhs_mm1_1 _ _).trans hk)
  rw [el, er]

/-- The left operand's index of the contraction, on its free axis: the output's row. -/
theorem lhs_mm2_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
/-- The left operand's index on its contracted axis: the contraction position. -/
theorem lhs_mm2_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
/-- The right operand's index on its free axis: the output's column. -/
theorem rhs_mm2_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
/-- The right operand's index on its contracted axis: the contraction position. -/
theorem rhs_mm2_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- The down projection's block product, contracting the second axis of both operands, into the zero accumulator, at entry (p, q): the sum over the 256 contraction positions. -/
theorem mm2_apply (a : S256x256.Idx → EReal) (b : S4096x256.Idx → EReal) (p : Fin 256) (q : Fin 4096) :
    (matmul (F := Ideal) (φ₁ := .bf16) (φ₂ := .bf16) dot_S256x256_S4096x256_S256x4096_1_1_0_0_n_n none a b (constant S256x4096 .f32 0x00000000#32) : S256x4096.Idx → EReal) (ix2 p q)
      = ∑ k : Fin 256, a (ix2 p k) * b (ix2 q k) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 p q) ((contrEquiv1 dot_S256x256_S4096x256_S256x4096_1_1_0_0_n_n 256 rfl rfl).symm k) = ix2 p k := funext fun c => Fin.ext (by
    match c with
    | ⟨0, _⟩ => exact lhs_mm2_0 _ _
    | ⟨1, _⟩ => exact (lhs_mm2_1 _ _).trans hk)
  have er : dot_S256x256_S4096x256_S256x4096_1_1_0_0_n_n.rhsIdx (ix2 p q) ((contrEquiv1 dot_S256x256_S4096x256_S256x4096_1_1_0_0_n_n 256 rfl rfl).symm k) = ix2 q k := funext fun c => Fin.ext (by
    match c with
    | ⟨0, _⟩ => exact rhs_mm2_0 _ _
    | ⟨1, _⟩ => exact (rhs_mm2_1 _ _).trans hk)
  rw [el, er]

/-- The logistic of a block, read at an entry: the logistic of the entry. -/
theorem logistic_at (x : S256x256.Idx → EReal) (i : S256x256.Idx) :
    (logistic (F := Ideal) (φ := .f32) x : S256x256.Idx → EReal) i = Ideal.logistic (x i) := rfl

/-- One grid point's partial product at entry (r, n). -/
def blockTerm (h Wg Wu : S256x4096.Idx → EReal) (Wd : S4096x256.Idx → EReal) (r : Fin 256) (n : Fin 4096) : EReal :=
  ∑ i' : Fin 256, ((∑ k : Fin 4096, h (ix2 r k) * Wg (ix2 i' k)) * Ideal.logistic (∑ k : Fin 4096, h (ix2 r k) * Wg (ix2 i' k))
      * (∑ k : Fin 4096, h (ix2 r k) * Wu (ix2 i' k))) * Wd (ix2 n i')

/-- The value stored into the running sum, at entry (r, n): what was there plus the point's partial product. -/
theorem k1_pay2_apply (h Wg Wu : S256x4096.Idx → EReal) (Wd : S4096x256.Idx → EReal) (acc : S256x4096.Idx → EReal) (r : Fin 256) (n : Fin 4096) :
    (k1_pay2 (F := Ideal) h Wg Wu Wd acc : S256x4096.Idx → EReal) (ix2 r n) = acc (ix2 r n) + blockTerm h Wg Wu Wd r n := by
  unfold k1_pay2
  simp only [shapeCast_self]
  rw [addf_apply, mm2_apply]
  unfold blockTerm
  refine congrArg (acc (ix2 r n) + ·) (Finset.sum_congr rfl fun i' _ => ?_)
  rw [truncf_apply, mulf_apply, mulf_apply, logistic_at, mm1_apply, mm1_apply]

/-- The value the running sum is reset to: zero at every entry. -/
theorem k1_pay1_apply (r : Fin 256) (n : Fin 4096) : (k1_pay1 (F := Ideal) : S256x4096.Idx → EReal) (ix2 r n) = 0 := by
  unfold k1_pay1
  simp only [shapeCast_self]
  rw [broadcast_apply]
  exact Ideal.ofBits_zero_f32

end Cert.KernelIdeal.Val

end
-- ==== Proof.KernelIdeal.MlpBlocks.lean ====
/-
  The second region's input blocks read off its arrays, and one grid point's partial product in terms of the arrays.

  Point t = 56·s + j stages rows 256·s … 256·s+255 of the normalised array (all 4096 columns), rows 256·j … 256·j+255 of
  the gate and of the up weights, and columns 256·j … 256·j+255 of the down weights (all 4096 rows). So the partial
  product the point adds to the running sum is, at entry (r, n) of row block s,
      Σ_{i' < 256} act(256·s + r, 256·j + i') · Wd[n, 256·j + i'],
  act(S, i) = g · logistic g · u with g = Σ_k h[S,k]·Wg[i,k] and u = Σ_k h[S,k]·Wu[i,k].
-/
import proofs.«120742_j45956150067864_1_alg».proof.Proof.KernelIdeal.MlpRegion
import proofs.«120742_j45956150067864_1_alg».proof.Proof.KernelIdeal.MlpPayload
import proofs.«120742_j45956150067864_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

variable (V : (c : Dev nD) → (b : Ref sig .tc) → Buf (Elt Ideal) ((c : Thread nD τ).loc b))

/-! ## The arrays and the blocks, at their literal types -/

/-- The normalised rows, 2048 × 4096, as the second region finds them. -/
abbrev hArr (c : Dev nD) : S2048x4096.Idx → EReal := V c main_v2
/-- The gate weights, 14336 × 4096. -/
abbrev gArr (c : Dev nD) : S14336x4096.Idx → EReal := V c main_v3
/-- The up weights, 14336 × 4096. -/
abbrev uArr (c : Dev nD) : S14336x4096.Idx → EReal := V c main_v4
/-- The down weights, 4096 × 14336. -/
abbrev dArr (c : Dev nD) : S4096x14336.Idx → EReal := V c main_v5

abbrev hBlk (c : Dev nD) (t : Fin cfg1.N) : S256x4096.Idx → EReal := mblk V c 0 t
abbrev gBlk (c : Dev nD) (t : Fin cfg1.N) : S256x4096.Idx → EReal := mblk V c 1 t
abbrev uBlk (c : Dev nD) (t : Fin cfg1.N) : S256x4096.Idx → EReal := mblk V c 2 t
abbrev dBlk (c : Dev nD) (t : Fin cfg1.N) : S4096x256.Idx → EReal := mblk V c 3 t

/-- Row 256·s + r of the 2048. -/
def row (s : Fin 8) (r : Fin 256) : Fin 2048 := ⟨256 * s.val + r.val, by have := s.isLt; have := r.isLt; omega⟩

/-! ## Where each window's block sits, decided over the grid -/

theorem mindex_facts : ∀ t : Fin cfg1.N,
    win1_0.index t (0 : Fin 2) = t.val / 56 ∧ win1_0.index t (1 : Fin 2) = 0
    ∧ win1_1.index t (0 : Fin 2) = t.val % 56 ∧ win1_1.index t (1 : Fin 2) = 0
    ∧ win1_2.index t (0 : Fin 2) = t.val % 56 ∧ win1_2.index t (1 : Fin 2) = 0
    ∧ win1_3.index t (0 : Fin 2) = 0 ∧ win1_3.index t (1 : Fin 2) = t.val % 56
    ∧ win1_4.index t (0 : Fin 2) = t.val / 56 ∧ win1_4.index t (1 : Fin 2) = 0 :=
  (by decide +kernel : ∀ t : Fin grid1.N, _)

/-! ## The blocks read off the arrays -/

theorem hBlk_apply (c : Dev nD) (t : Fin cfg1.N) (s : Fin 8) (j : Fin 56) (ht : t.val = 56 * s.val + j.val) (r : Fin 256) (k : Fin 4096) :
    hBlk V c t (ix2 r k) = hArr V c (ix2 (row s r) k) := by
  obtain ⟨e0, e1, -⟩ := mindex_facts t
  show V c main_v2 (((cfg1.win 0).blk t).view.emb (ix2 r k)) = V c main_v2 (ix2 (row s r) k)
  refine congrArg (V c main_v2) ?_
  funext a; apply Fin.ext
  have hj := j.isLt
  match a with
  | ⟨0, _⟩ => show win1_0.index t (0 : Fin 2) * 256 + 1 * r.val = 256 * s.val + r.val; omega
  | ⟨1, _⟩ => show win1_0.index t (1 : Fin 2) * 4096 + 1 * k.val = k.val; omega

theorem gBlk_apply (c : Dev nD) (t : Fin cfg1.N) (s : Fin 8) (j : Fin 56) (ht : t.val = 56 * s.val + j.val) (i' : Fin 256) (k : Fin 4096) :
    gBlk V c t (ix2 i' k) = gArr V c (ix2 (Cert.Spec.inner j i') k) := by
  obtain ⟨-, -, e0, e1, -⟩ := mindex_facts t
  show V c main_v3 (((cfg1.win 1).blk t).view.emb (ix2 i' k)) = V c main_v3 (ix2 (Cert.Spec.inner j i') k)
  refine congrArg (V c main_v3) ?_
  funext a; apply Fin.ext
  have hj := j.isLt
  match a with
  | ⟨0, _⟩ => show win1_1.index t (0 : Fin 2) * 256 + 1 * i'.val = 256 * j.val + i'.val; omega
  | ⟨1, _⟩ => show win1_1.index t (1 : Fin 2) * 4096 + 1 * k.val = k.val; omega

theorem uBlk_apply (c : Dev nD) (t : Fin cfg1.N) (s : Fin 8) (j : Fin 56) (ht : t.val = 56 * s.val + j.val) (i' : Fin 256) (k : Fin 4096) :
    uBlk V c t (ix2 i' k) = uArr V c (ix2 (Cert.Spec.inner j i') k) := by
  obtain ⟨-, -, -, -, e0, e1, -⟩ := mindex_facts t
  show V c main_v4 (((cfg1.win 2).blk t).view.emb (ix2 i' k)) = V c main_v4 (ix2 (Cert.Spec.inner j i') k)
  refine congrArg (V c main_v4) ?_
  funext a; apply Fin.ext
  have hj := j.isLt
  match a with
  | ⟨0, _⟩ => show win1_2.index t (0 : Fin 2) * 256 + 1 * i'.val = 256 * j.val + i'.val; omega
  | ⟨1, _⟩ => show win1_2.index t (1 : Fin 2) * 4096 + 1 * k.val = k.val; omega

theorem dBlk_apply (c : Dev nD) (t : Fin cfg1.N) (s : Fin 8) (j : Fin 56) (ht : t.val = 56 * s.val + j.val) (n : Fin 4096) (i' : Fin 256) :
    dBlk V c t (ix2 n i') = dArr V c (ix2 n (Cert.Spec.inner j i')) := by
  obtain ⟨-, -, -, -, -, -, e0, e1, -⟩ := mindex_facts t
  show V c main_v5 (((cfg1.win 3).blk t).view.emb (ix2 n i')) = V c main_v5 (ix2 n (Cert.Spec.inner j i'))
  refine congrArg (V c main_v5) ?_
  funext a; apply Fin.ext
  have hj := j.isLt
  match a with
  | ⟨0, _⟩ => show win1_3.index t (0 : Fin 2) * 4096 + 1 * n.val = n.val; omega
  | ⟨1, _⟩ => show win1_3.index t (1 : Fin 2) * 256 + 1 * i'.val = 256 * j.val + i'.val; omega

/-! ## One point's partial product -/

/-- The partial product grid position `p` adds to the running sum, at entry (r, q) (zero outside the grid). -/
def termAt (c : Dev nD) (p : ℕ) (r : Fin 256) (q : Fin 4096) : EReal :=
  if h : p < cfg1.N then blockTerm (hBlk V c ⟨p, h⟩) (gBlk V c ⟨p, h⟩) (uBlk V c ⟨p, h⟩) (dBlk V c ⟨p, h⟩) r q else 0

/-- The gated activation of row S at inner index i, from the arrays. -/
def actArr (c : Dev nD) (S : Fin 2048) (i : Fin 14336) : EReal :=
  (∑ k : Fin 4096, hArr V c (ix2 S k) * gArr V c (ix2 i k)) * Ideal.logistic (∑ k : Fin 4096, hArr V c (ix2 S k) * gArr V c (ix2 i k))
    * (∑ k : Fin 4096, hArr V c (ix2 S k) * uArr V c (ix2 i k))

/-- The partial product of point 56·s + j in terms of the arrays. -/
theorem termAt_eq (c : Dev nD) (s : Fin 8) (j : Fin 56) (r : Fin 256) (q : Fin 4096) :
    termAt V c (56 * s.val + j.val) r q = ∑ i' : Fin 256, actArr V c (row s r) (Cert.Spec.inner j i') * dArr V c (ix2 q (Cert.Spec.inner j i')) := by
  have hp : 56 * s.val + j.val < cfg1.N := by rw [show cfg1.N = 448 from N_1]; have := s.isLt; have := j.isLt; omega
  unfold termAt
  rw [dif_pos hp]
  unfold blockTerm actArr
  refine Finset.sum_congr rfl fun i' _ => ?_
  simp only [hBlk_apply V c ⟨_, hp⟩ s j rfl, gBlk_apply V c ⟨_, hp⟩ s j rfl, uBlk_apply V c ⟨_, hp⟩ s j rfl, dBlk_apply V c ⟨_, hp⟩ s j rfl]

end Cert.KernelIdeal.Val

end
-- ==== Proof.KernelIdeal.HostEntries.lean ====
/-
  The host stretches around the two regions, read entry by entry.

  Before the first region the input x : [1, 2048, 4096] is reshaped to [2048, 4096] and the weight w : [4096] to [1, 4096]:
  entry (s, k) of the one is x[0, s, k], entry (0, k) of the other is w[k]. Between the regions the three weight arrays are
  converted to a narrower float format — at the extended reals the identity — and nothing writes the first region's output,
  which the second region therefore finds as the first left it. After the second region its [2048, 4096] output is reshaped
  to the [1, 2048, 4096] result: entry (0, s, n) is entry (s, n).
-/
import proofs.«120742_j45956150067864_1_alg».proof.Proof.KernelIdeal.ProgramRun
import proofs.«120742_j45956150067864_1_alg».proof.Proof.KernelIdeal.NormArray
import proofs.«120742_j45956150067864_1_alg».proof.Proof.KernelIdeal.MlpBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

variable (m : (ℓ : Loc nD τ sig) → Buf (Elt Ideal) ℓ) (ρ : Dev nD → PrngReg)

/-- The five arguments as launched, at their literal types. -/
abbrev xArg (c : Dev nD) : S1x2048x4096.Idx → EReal := m ((c : Thread nD τ).loc main_arg0)
abbrev wArg (c : Dev nD) : S4096.Idx → EReal := m ((c : Thread nD τ).loc main_arg1)
abbrev gArg (c : Dev nD) : S14336x4096.Idx → EReal := m ((c : Thread nD τ).loc main_arg2)
abbrev uArg (c : Dev nD) : S14336x4096.Idx → EReal := m ((c : Thread nD τ).loc main_arg3)
abbrev dArg (c : Dev nD) : S4096x14336.Idx → EReal := m ((c : Thread nD τ).loc main_arg4)
/-- The second region's output array after it, and the program's result, at their literal types. -/
abbrev outArr (c : Dev nD) : S2048x4096.Idx → EReal := W4 m ρ c (Proc.devRef .tc main_v6)
abbrev resultArr (c : Dev nD) : S1x2048x4096.Idx → EReal := W5 m ρ c (Proc.devRef .tc main_v7)

/-- No host stretch before the second region writes an argument array, and the first region has none among its windows' arrays:
    entering the second host stretch, the gate weights' argument holds what it held at launch; -/
theorem gateArg_carried (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-- so does the up weights' argument, -/
theorem upArg_carried (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-- and the down weights' argument. -/
theorem downArg_carried (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- The first region's rows are the input reshaped. -/
theorem rows_entry (c : Dev nD) (s : Fin 2048) (k : Fin 4096) : rowsArr (V1 m ρ) c (ix2 s k) = xArg m c (ix3 0 s k) := by
  -- the first host stretch leaves in the rows' array the input cast from [1, 2048, 4096] to [2048, 4096]
  have e : (rowsArr (V1 m ρ) c : S2048x4096.Idx → EReal)
      = shapeCast S2048x4096 (xArg m c) shapeCasts_S1x2048x4096_S2048x4096 := by
    show StableHlo.after hostOps0 (W0 m ρ c) (Proc.devRef .tc main_v0) = _
    after_results
    rfl
  -- and the cast keeps row-major positions: (0 · 2048 + s) · 4096 + k = s · 4096 + k
  rw [e]
  exact shapeCast_1ab_ab_apply _ _ s k

/-- The first region's weight row is the weight reshaped. -/
theorem weight_entry (c : Dev nD) (k : Fin 4096) : weightArr (V1 m ρ) c (ix2 0 k) = wArg m c (ix1 k) := by
  -- the first host stretch leaves in the weight row's array the weight cast from [4096] to [1, 4096]
  have e : (weightArr (V1 m ρ) c : S1x4096.Idx → EReal)
      = shapeCast S1x4096 (wArg m c) shapeCasts_S4096_S1x4096 := by
    show StableHlo.after hostOps0 (W0 m ρ c) (Proc.devRef .tc main_v1) = _
    after_results
    rfl
  -- and the cast keeps row-major positions: 0 · 4096 + k = k
  rw [e]
  exact shapeCast_a_1a_apply _ _ 0 k

/-- The second region finds the normalised rows as the first region left them. -/
theorem normed_carried (c : Dev nD) (s : Fin 2048) (k : Fin 4096) : hArr (V3 m ρ) c (ix2 s k) = normedArr (V1 m ρ) c (ix2 s k) := by
  -- the conversions between the regions write only the three weight arrays; the first region's output array is its third window's
  have e : (hArr (V3 m ρ) c : S2048x4096.Idx → EReal) = normedArr (V1 m ρ) c :=
    calc W3 m ρ c (Proc.devRef .tc main_v2)
      _ = W2 m ρ c (Proc.devRef .tc main_v2) := StableHlo.after_of_writes_sub hostOps1 _ hostOps1_writes (by decide : main_v2 ∉ hostOps1_W)
      _ = (ndat (V1 m ρ) c).arrAt 2 cfg0.N := W2_arr m ρ c 2
  rw [e]

/-- The gate weights the second region finds are the argument's (the format change is the identity here). -/
theorem gate_entry (c : Dev nD) (i : Fin 14336) (k : Fin 4096) : gArr (V3 m ρ) c (ix2 i k) = gArg m c (ix2 i k) := by
  -- the second host stretch leaves in the gate array the argument, as it then stands, converted to the narrower format
  have e : (gArr (V3 m ρ) c : S14336x4096.Idx → EReal)
      = (truncf FTy.bf16 (W2 m ρ c (Proc.devRef .tc main_arg2) : FVec Ideal S14336x4096 .f32) bitsLt_bf16_f32 : FVec Ideal S14336x4096 .bf16) := by
    show StableHlo.after hostOps1 (W2 m ρ c) (Proc.devRef .tc main_v3) = _
    after_results
  -- the conversion is the identity on extended reals, and the argument then stands as launched
  rw [e, truncf_apply, gateArg_carried m ρ c]

/-- The same for the up weights, -/
theorem up_entry (c : Dev nD) (i : Fin 14336) (k : Fin 4096) : uArr (V3 m ρ) c (ix2 i k) = uArg m c (ix2 i k) := by
  have e : (uArr (V3 m ρ) c : S14336x4096.Idx → EReal)
      = (truncf FTy.bf16 (W2 m ρ c (Proc.devRef .tc main_arg3) : FVec Ideal S14336x4096 .f32) bitsLt_bf16_f32 : FVec Ideal S14336x4096 .bf16) := by
    show StableHlo.after hostOps1 (W2 m ρ c) (Proc.devRef .tc main_v4) = _
    after_results
  rw [e, truncf_apply, upArg_carried m ρ c]

/-- and for the down weights. -/
theorem down_entry (c : Dev nD) (n : Fin 4096) (i : Fin 14336) : dArr (V3 m ρ) c (ix2 n i) = dArg m c (ix2 n i) := by
  have e : (dArr (V3 m ρ) c : S4096x14336.Idx → EReal)
      = (truncf FTy.bf16 (W2 m ρ c (Proc.devRef .tc main_arg4) : FVec Ideal S4096x14336 .f32) bitsLt_bf16_f32 : FVec Ideal S4096x14336 .bf16) := by
    show StableHlo.after hostOps1 (W2 m ρ c) (Proc.devRef .tc main_v5) = _
    after_results
  rw [e, truncf_apply, downArg_carried m ρ c]

/-- The result is the second region's output reshaped. -/
theorem result_entry (c : Dev nD) (s : Fin 2048) (n : Fin 4096) : resultArr m ρ c (ix3 0 s n) = outArr m ρ c (ix2 s n) := by
  -- the last host stretch leaves in the result the second region's output cast from [2048, 4096] to [1, 2048, 4096]
  have e : (resultArr m ρ c : S1x2048x4096.Idx → EReal)
      = shapeCast S1x2048x4096 (outArr m ρ c) shapeCasts_S2048x4096_S1x2048x4096 := by
    show StableHlo.after hostOps2 (W4 m ρ c) (Proc.devRef .tc main_v7) = _
    after_results
    rfl
  -- and the cast keeps row-major positions: s · 4096 + n = (0 · 2048 + s) · 4096 + n
  rw [e]
  exact shapeCast_ab_1ab_apply _ _ 0 s n

end Cert.KernelIdeal.Val

end
-- ==== Proof.KernelIdeal.MlpPieces.lean ====
/-
  What each control case of the second kernel leaves in the running sum's buffer and in the output's staging buffer,
  as the body's pure terms: at a point with j = 0 the running sum ends at the point's update of the reset value; at a
  later point at the point's update of what the point before left; and at j = 55 the output's staging buffer ends at that
  same updated sum. (At any instance of the arithmetic.)
-/
import proofs.«120742_j45956150067864_1_alg».proof.Proof.KernelIdeal.MlpRegion
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangle's offsets are zero. -/
theorem mhz : (![0, 0] : Fin 2 → Nat) = fun _ => 0 := funext fun a => by fin_cases a <;> rfl

/-- j = 0: the running sum ends at the update of the reset value. -/
theorem msout_first_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : mcondFirst i) (hc1 : ¬mcondLast i)
    (x0 : Vec F S256x4096 .bf16) (x1 : Vec F S256x4096 .bf16) (x2 : Vec F S256x4096 .bf16) (x3 : Vec F S4096x256 .bf16) :
    msout_first c i arg2 harg2 arg3 harg3 arg4 harg4 arg5 harg5 arg6 harg6 arg7 harg7 hc0 hc1 x0 x1 x2 x3 = k1_pay2 x0 x1 x2 x3 (k1_pay1 (F := F)) := by
  unfold msout_first
  rw [View.read_writes_eq_canon _ _ _ (mscover_first c i arg2 harg2 arg3 harg3 arg4 harg4 arg5 harg5 arg6 harg6 arg7 harg7 hc0 hc1 x0 x1 x2 x3)]
  unfold mrunFirst
  dsimp only
  sl_unfold_words
  rw [View.canon_cons_unit_zero (S := S256x4096) mhz, View.readCov_unit_zero (S := S256x4096) _ mhz]
  simp only [View.readAt_eq_ld, harg2.read_unread, harg3.read_unread, harg4.read_unread, harg5.read_unread, harg7.read_unread, View.ld_unit_zero (S := S256x4096) mhz, View.ld_unit_zero (S := S4096x256) mhz, View.readCov_unit_zero (S := S256x4096) _ mhz]

/-- 0 < j < 55: the running sum ends at the update of what the point before left. -/
theorem msout_middle_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : ¬mcondLast i)
    (x0 : Vec F S256x4096 .bf16) (x1 : Vec F S256x4096 .bf16) (x2 : Vec F S256x4096 .bf16) (x3 : Vec F S4096x256 .bf16) (xs0 : Vec F S256x4096 .f32) :
    msout_middle c i arg2 harg2 arg3 harg3 arg4 harg4 arg5 harg5 arg6 harg6 arg7 harg7 hc0 hc1 x0 x1 x2 x3 xs0 = k1_pay2 x0 x1 x2 x3 xs0 := by
  unfold msout_middle
  rw [View.read_writes_eq_canon _ _ _ (mscover_middle c i arg2 harg2 arg3 harg3 arg4 harg4 arg5 harg5 arg6 harg6 arg7 harg7 hc0 hc1 x0 x1 x2 x3 xs0)]
  unfold mrunMiddle
  dsimp only
  sl_unfold_words
  rw [View.canon_unit_zero mhz]
  simp only [View.readAt_eq_ld, harg2.read_unread, harg3.read_unread, harg4.read_unread, harg5.read_unread, harg7.read_unread, View.ld_unit_zero (S := S256x4096) mhz, View.ld_unit_zero (S := S4096x256) mhz, View.readCov_unit_zero (S := S256x4096) _ mhz]

/-- j = 55: the running sum ends at the update of what the point before left, -/
theorem msout_last_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) :
    msout_last c i arg2 harg2 arg3 harg3 arg4 harg4 arg5 harg5 arg6 harg6 arg7 harg7 hc0 hc1 x0 x1 x2 x3 xs0 = k1_pay2 x0 x1 x2 x3 xs0 := by
  unfold msout_last
  rw [View.read_writes_eq_canon _ _ _ (mscover_last c i arg2 harg2 arg3 harg3 arg4 harg4 arg5 harg5 arg6 harg6 arg7 harg7 hc0 hc1 x0 x1 x2 x3 xs0)]
  unfold mrunLast
  dsimp only
  sl_unfold_words
  rw [View.canon_unit_zero mhz]
  simp only [View.readAt_eq_ld, harg2.read_unread, harg3.read_unread, harg4.read_unread, harg5.read_unread, harg7.read_unread, View.ld_unit_zero (S := S256x4096) mhz, View.ld_unit_zero (S := S4096x256) mhz, View.readCov_unit_zero (S := S256x4096) _ mhz]

/-- and the output's staging buffer at the same. -/
theorem mout_last_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬mcondFirst i) (hc1 : mcondLast i)
    (x0 : Vec F S256x4096 .bf16) (x1 : Vec F S256x4096 .bf16) (x2 : Vec F S256x4096 .bf16) (x3 : Vec F S4096x256 .bf16) (xs0 : Vec F S256x4096 .f32) :
    mout_last c i arg2 harg2 arg3 harg3 arg4 harg4 arg5 harg5 arg6 harg6 arg7 harg7 hc0 hc1 x0 x1 x2 x3 xs0 = k1_pay2 x0 x1 x2 x3 xs0 := by
  unfold mout_last
  rw [View.read_writes_eq_canon _ _ _ (mcover_last c i arg2 harg2 arg3 harg3 arg4 harg4 arg5 harg5 arg6 harg6 arg7 harg7 hc0 hc1 x0 x1 x2 x3 xs0)]
  unfold mrunLast
  dsimp only
  sl_unfold_words
  rw [View.canon_unit_zero mhz]
  simp only [View.readAt_eq_ld, harg2.read_unread, harg3.read_unread, harg4.read_unread, harg5.read_unread, harg7.read_unread, View.ld_unit_zero (S := S256x4096) mhz, View.ld_unit_zero (S := S4096x256) mhz, View.readCov_unit_zero (S := S256x4096) _ mhz]

end Cert.KernelIdeal.Frame

end
-- ==== Proof.KernelIdeal.MlpSum.lean ====
/-
  The running sum after every grid point of the second region.

  At a point with j = 0 the running sum is reset to zero and then receives the point's partial product; at a later point
  it receives the point's partial product on top of what the point before left. So after point 56·s + j it holds the sum of
  the partial products of points 56·s, …, 56·s + j, and at j = 55 — where it is copied to the output's staging buffer —
  the sum over all 56 inner blocks.
-/
import proofs.«120742_j45956150067864_1_alg».proof.Proof.KernelIdeal.MlpBlocks
import proofs.«120742_j45956150067864_1_alg».proof.Proof.KernelIdeal.MlpPieces
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

variable (V : (c : Dev nD) → (b : Ref sig .tc) → Buf (Elt Ideal) ((c : Thread nD τ).loc b))

/-- The running sum after grid position `n`. -/
abbrev runSum (c : Dev nD) (n : ℕ) (hn : n < cfg1.N) : S256x4096.Idx → EReal := (moutsAt V c n hn).2
/-- The output's staging buffer after grid position `n`. -/
abbrev outBuf (c : Dev nD) (n : ℕ) (hn : n < cfg1.N) : S256x4096.Idx → EReal := (moutsAt V c n hn).1

theorem runSum_congr (c : Dev nD) {n n' : ℕ} (h : n = n') (hn : n < cfg1.N) (hn' : n' < cfg1.N) :
    runSum V c n hn = runSum V c n' hn' := by subst h; rfl

/-- At a point with j = 0: the point's partial product (on top of the zero the sum was reset to). -/
theorem runSum_first (c : Dev nD) (t : Fin cfg1.N) (h0 : t.val % 56 = 0) (r : Fin 256) (q : Fin 4096) :
    runSum V c t.val t.isLt (ix2 r q) = termAt V c t.val r q := by
  have h1 : ¬t.val % 56 = 55 := by omega
  unfold termAt; rw [dif_pos t.isLt]
  show (moutsAt V c t.val t.isLt).2 (ix2 r q) = _
  rw [moutsAt_first V c t h0 h1]; dsimp only
  refine (congrFun (msout_first_eq (F := Ideal) c (grid1.coords t) (mms0 t) (mhs0 t) (mms1 t) (mhs1 t) (mms2 t) (mhs2 t) (mms3 t) (mhs3 t) (mms4 t) (mhs4 t) mscM (Memref.isWhole_whole _) ((hcondFirst t).mpr h0) (fun h => h1 ((hcondLast t).mp h)) (mblk V c 0 t) (mblk V c 1 t) (mblk V c 2 t) (mblk V c 3 t)) (ix2 r q)).trans ?_
  refine (k1_pay2_apply (hBlk V c t) (gBlk V c t) (uBlk V c t) (dBlk V c t) (k1_pay1 (F := Ideal)) r q).trans ?_
  rw [k1_pay1_apply, zero_add]

/-- At a later point: what the point before left plus the point's partial product. -/
theorem runSum_step (c : Dev nD) (t : Fin cfg1.N) (h0 : ¬t.val % 56 = 0) (r : Fin 256) (q : Fin 4096) :
    runSum V c t.val t.isLt (ix2 r q)
      = runSum V c (t.val - 1) (Nat.lt_of_le_of_lt (Nat.sub_le _ _) t.isLt) (ix2 r q) + termAt V c t.val r q := by
  unfold termAt; rw [dif_pos t.isLt]
  show (moutsAt V c t.val t.isLt).2 (ix2 r q) = (moutsAt V c (t.val - 1) (Nat.lt_of_le_of_lt (Nat.sub_le _ _) t.isLt)).2 (ix2 r q) + _
  by_cases h1 : t.val % 56 = 55
  · rw [moutsAt_last V c t h0 h1]; dsimp only
    refine (congrFun (msout_last_eq (F := Ideal) c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2) (ix2 r q)).trans ?_
    exact k1_pay2_apply (hBlk V c t) (gBlk V c t) (uBlk V c t) (dBlk V c t) (moutsAt V c (t.val - 1) (Nat.lt_of_le_of_lt (Nat.sub_le _ _) t.isLt)).2 r q
  · rw [moutsAt_middle V c t h0 h1]; dsimp only
    refine (congrFun (msout_middle_eq (F := Ideal) c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) (fun h => h1 ((hcondLast t).mp h)) (mblk V c 0 t) (mblk V c 1 t) (mblk V c 2 t) (mblk V c 3 t) (moutsAt V c (t.val - 1) (Nat.lt_of_le_of_lt (Nat.sub_le _ _) t.isLt)).2) (ix2 r q)).trans ?_
    exact k1_pay2_apply (hBlk V c t) (gBlk V c t) (uBlk V c t) (dBlk V c t) (moutsAt V c (t.val - 1) (Nat.lt_of_le_of_lt (Nat.sub_le _ _) t.isLt)).2 r q

/-- At a point with j = 55 the output's staging buffer holds the running sum. -/
theorem outBuf_last (c : Dev nD) (t : Fin cfg1.N) (h1 : t.val % 56 = 55) (r : Fin 256) (q : Fin 4096) :
    outBuf V c t.val t.isLt (ix2 r q) = runSum V c t.val t.isLt (ix2 r q) := by
  have h0 : ¬t.val % 56 = 0 := by omega
  show (moutsAt V c t.val t.isLt).1 (ix2 r q) = (moutsAt V c t.val t.isLt).2 (ix2 r q)
  rw [moutsAt_last V c t h0 h1]; dsimp only
  exact (congrFun (mout_last_eq (F := Ideal) c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2) (ix2 r q)).trans
    (congrFun (msout_last_eq (F := Ideal) c (grid1.coords t) (mms0 t) (mhs0 t) (mms1 t) (mhs1 t) (mms2 t) (mhs2 t) (mms3 t) (mhs3 t) (mms4 t) (mhs4 t) mscM (Memref.isWhole_whole _) (fun h => h0 ((hcondFirst t).mp h)) ((hcondLast t).mpr h1) (mblk V c 0 t) (mblk V c 1 t) (mblk V c 2 t) (mblk V c 3 t) (moutsAt V c (t.val - 1) (Nat.lt_of_le_of_lt (Nat.sub_le _ _) t.isLt)).2) (ix2 r q)).symm

theorem pos_lt (s : Fin 8) (j : ℕ) (hj : j < 56) : 56 * s.val + j < cfg1.N := by
  rw [show cfg1.N = 448 from N_1]; have := s.isLt; omega

/-- After point 56·s + j the running sum is the sum of the partial products of points 56·s … 56·s + j. -/
theorem runSum_eq (c : Dev nD) (s : Fin 8) : ∀ (j : ℕ) (hj : j < 56) (r : Fin 256) (q : Fin 4096),
    runSum V c (56 * s.val + j) (pos_lt s j hj) (ix2 r q) = ∑ j' ∈ Finset.range (j + 1), termAt V c (56 * s.val + j') r q
  | 0, hj, r, q => by
      rw [Finset.sum_range_one]
      exact runSum_first V c ⟨56 * s.val + 0, pos_lt s 0 hj⟩ (by show (56 * s.val + 0) % 56 = 0; omega) r q
  | j + 1, hj, r, q => by
      rw [Finset.sum_range_succ, ← runSum_eq c s j (by omega) r q]
      have hstep := runSum_step V c ⟨56 * s.val + (j + 1), pos_lt s (j + 1) hj⟩ (by show ¬(56 * s.val + (j + 1)) % 56 = 0; omega) r q
      refine hstep.trans ?_
      rw [runSum_congr V c (show (⟨56 * s.val + (j + 1), pos_lt s (j + 1) hj⟩ : Fin cfg1.N).val - 1 = 56 * s.val + j by show 56 * s.val + (j + 1) - 1 = _; omega) _ (pos_lt s j (by omega))]

/-- What the output's staging buffer holds when it is written back (at point 56·s + 55), from the arrays. -/
theorem flushed_value (c : Dev nD) (t : Fin cfg1.N) (h1 : t.val % 56 = 55) (s : Fin 8) (hs : t.val = 56 * s.val + 55) (r : Fin 256) (q : Fin 4096) :
    outBuf V c t.val t.isLt (ix2 r q)
      = ∑ j : Fin 56, ∑ i' : Fin 256, actArr V c (row s r) (Cert.Spec.inner j i') * dArr V c (ix2 q (Cert.Spec.inner j i')) := by
  rw [outBuf_last V c t h1 r q, runSum_congr V c hs t.isLt (pos_lt s 55 (by norm_num)), runSum_eq V c s 55 (by norm_num) r q, Finset.sum_range]
  exact Finset.sum_congr rfl fun j _ => termAt_eq V c s j r q

end Cert.KernelIdeal.Val

end
-- ==== Proof.KernelIdeal.MlpArray.lean ====
/-
  What the second region leaves in its output array: entry (S, n) of the 2048 × 4096 output is
      Σ_{j < 56} Σ_{i' < 256} act(S, 256·j + i') · Wd[n, 256·j + i'].
  Row S lies in row block s = S / 256, whose 256 × 4096 block is written back once, by point 56·s + 55, from the
  staging buffer holding the full running sum; the eight blocks tile the array.
-/
import proofs.«120742_j45956150067864_1_alg».proof.Proof.KernelIdeal.MlpSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

variable (V : (c : Dev nD) → (b : Ref sig .tc) → Buf (Elt Ideal) ((c : Thread nD τ).loc b))

/-- The second region's output array after the region, as one function of the arrays it was entered with. -/
def Gout (c : Dev nD) : S2048x4096.Idx → EReal := fun idx =>
  ∑ j : Fin 56, ∑ i' : Fin 256, actArr V c (idx 0) (Cert.Spec.inner j i') * dArr V c (ix2 (idx 1) (Cert.Spec.inner j i'))

/-- What a flushing point writes back is its block of `Gout`. -/
theorem mflushed_eq (c : Dev nD) (t : Fin cfg1.N) (hf : (cfg1.win 4).flush t = true) :
    (mdat V c).flushed 4 t = ((cfg1.win 4).blk t).view.read (Elt Ideal) (Gout V c) := by
  have h1 : t.val % 56 = 55 := (flush1_4 t).mp hf
  have hN : t.val < 448 := lt_of_lt_of_eq t.isLt (show cfg1.N = 448 from N_1)
  obtain ⟨-, -, -, -, -, -, -, -, e0, e1⟩ := mindex_facts t
  show (cfg1.win 4).cut (grid1.coords t) ((mdat V c).after 4 t) = _
  rw [mafter4]
  funext y
  have hy : y = ix2 (y 0) (y 1) := eq_ix2 y
  rw [hy]
  have hs : t.val = 56 * (⟨t.val / 56, by omega⟩ : Fin 8).val + 55 := by show t.val = 56 * (t.val / 56) + 55; omega
  show outBuf V c t.val t.isLt (ix2 (y 0) (y 1)) = Gout V c (((cfg1.win 4).blk t).view.emb (ix2 (y 0) (y 1)))
  rw [flushed_value V c t h1 ⟨t.val / 56, by omega⟩ hs (y 0) (y 1)]
  have hemb : ((cfg1.win 4).blk t).view.emb (ix2 (y 0) (y 1)) = ix2 (row ⟨t.val / 56, by omega⟩ (y 0)) (y 1) := by
    funext a; apply Fin.ext
    match a with
    | ⟨0, _⟩ => show win1_4.index t (0 : Fin 2) * 256 + 1 * (y 0).val = 256 * (t.val / 56) + (y 0).val; omega
    | ⟨1, _⟩ => show win1_4.index t (1 : Fin 2) * 4096 + 1 * (y 1).val = (y 1).val; omega
  rw [hemb]
  rfl

/-- An index of the array is in point `t`'s block iff each coordinate is in the block's range on its axis. -/
theorem mmem_blk (t : Fin cfg1.N) (i : S2048x4096.Idx) :
    i ∈ ((cfg1.win 4).blk t).view.set ↔ ∀ a : Fin 2, win1_4.index t a * S256x4096.size a ≤ (i a).val ∧ (i a).val < win1_4.index t a * S256x4096.size a + S256x4096.size a := by
  show i ∈ ((View.whole main_v6).slice (win1_4.rect t)).set ↔ _
  rw [View.set_slice_whole, Rect.mem_set_unit]
  exact Iff.rfl

/-- Every entry of the array lies in the block of a flushing point: row S in that of point 56·(S / 256) + 55. -/
theorem mcover (i : S2048x4096.Idx) : ∃ t : Fin cfg1.N, (cfg1.win 4).flush t = true ∧ i ∈ ((cfg1.win 4).blk t).view.set := by
  have hi0 : (i 0).val < 2048 := (i 0).isLt
  have hi1 : (i 1).val < 4096 := (i 1).isLt
  have hlt : 56 * ((i 0).val / 256) + 55 < cfg1.N := by rw [show cfg1.N = 448 from N_1]; omega
  obtain ⟨-, -, -, -, -, -, -, -, e0, e1⟩ := mindex_facts ⟨56 * ((i 0).val / 256) + 55, hlt⟩
  have e0' : win1_4.index ⟨56 * ((i 0).val / 256) + 55, hlt⟩ (0 : Fin 2) = (56 * ((i 0).val / 256) + 55) / 56 := e0
  refine ⟨⟨56 * ((i 0).val / 256) + 55, hlt⟩, (flush1_4 _).mpr (by show (56 * ((i 0).val / 256) + 55) % 56 = 55; omega), ?_⟩
  rw [mmem_blk]
  intro a
  match a with
  | ⟨0, _⟩ => show win1_4.index ⟨56 * ((i 0).val / 256) + 55, hlt⟩ (0 : Fin 2) * 256 ≤ (i 0).val ∧ (i 0).val < win1_4.index ⟨56 * ((i 0).val / 256) + 55, hlt⟩ (0 : Fin 2) * 256 + 256; omega
  | ⟨1, _⟩ => show win1_4.index ⟨56 * ((i 0).val / 256) + 55, hlt⟩ (1 : Fin 2) * 4096 ≤ (i 1).val ∧ (i 1).val < win1_4.index ⟨56 * ((i 0).val / 256) + 55, hlt⟩ (1 : Fin 2) * 4096 + 4096; omega

/-- THE ARRAY after the region. -/
theorem mlp_array (c : Dev nD) : (mdat V c).arrAt 4 cfg1.N = Gout V c :=
  (mdat V c).arrAt_eq_of_cover 4 (Gout V c) (fun t hf => mflushed_eq V c t hf) (fun i => mcover i)

end Cert.KernelIdeal.Val

end
-- ==== Proof.KernelIdeal.KernelValue.lean ====
/-
  The idealized kernel's result as a function of the five arguments: the specification's block-by-block sum.

  Entry (0, s, n) of the result is entry (s, n) of the second region's output array, which is
  Σ_j Σ_i' act(s, 256·j + i') · Wd[n, 256·j + i'] over the arrays that region was entered with; those are the arguments'
  weight arrays (the format change being the identity over the extended reals) and the first region's output, whose entry
  (s, k) is x[0,s,k] · rsqrt(mean square of row s + ε) · w[k].
-/
import proofs.«120742_j45956150067864_1_alg».proof.Proof.KernelIdeal.HostEntries
import proofs.«120742_j45956150067864_1_alg».proof.Proof.KernelIdeal.MlpArray
import proofs.«120742_j45956150067864_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame

variable (m : (ℓ : Loc nD τ sig) → Buf (Elt Ideal) ℓ) (ρ : Dev nD → PrngReg)

/-- The rows the second region finds are the specification's normalised rows of the arguments. -/
theorem normed_entry (c : Dev nD) (s : Fin 2048) (k : Fin 4096) :
    hArr (V3 m ρ) c (ix2 s k) = Cert.Spec.normed (xArg m c) (wArg m c) s k := by
  have hsum : (∑ k' : Fin 4096, rowsArr (V1 m ρ) c (ix2 s k') * rowsArr (V1 m ρ) c (ix2 s k'))
      = ∑ k' : Fin 4096, xArg m c (ix3 0 s k') * xArg m c (ix3 0 s k') :=
    Finset.sum_congr rfl fun k' _ => by rw [rows_entry]
  rw [normed_carried, norm_array, hsum, rows_entry, weight_entry]
  rfl

/-- A projection of those rows onto a row of gate or up weights is the specification's. -/
theorem proj_gate (c : Dev nD) (s : Fin 2048) (i : Fin 14336) :
    (∑ k : Fin 4096, hArr (V3 m ρ) c (ix2 s k) * gArr (V3 m ρ) c (ix2 i k)) = Cert.Spec.proj (xArg m c) (wArg m c) (gArg m c) s i :=
  Finset.sum_congr rfl fun k _ => by rw [normed_entry, gate_entry]

theorem proj_up (c : Dev nD) (s : Fin 2048) (i : Fin 14336) :
    (∑ k : Fin 4096, hArr (V3 m ρ) c (ix2 s k) * uArr (V3 m ρ) c (ix2 i k)) = Cert.Spec.proj (xArg m c) (wArg m c) (uArg m c) s i :=
  Finset.sum_congr rfl fun k _ => by rw [normed_entry, up_entry]

/-- The gated activation over the arrays the second region finds is the specification's. -/
theorem act_entry (c : Dev nD) (s : Fin 2048) (i : Fin 14336) :
    actArr (V3 m ρ) c s i = Cert.Spec.act (xArg m c) (wArg m c) (gArg m c) (uArg m c) s i := by
  unfold actArr Cert.Spec.act
  rw [proj_gate, proj_up]

/-- The second region's output array after it is `Gout` of the arrays it was entered with. -/
theorem outArr_eq (c : Dev nD) : outArr m ρ c = Gout (V3 m ρ) c :=
  (W4_arr m ρ c 4).trans (mlp_array (V3 m ρ) c)

/-- `Gout` at explicit coordinates. -/
theorem Gout_apply (V : (c : Dev nD) → (b : Ref sig .tc) → Buf (Elt Ideal) ((c : Thread nD τ).loc b)) (c : Dev nD) (s : Fin 2048) (n : Fin 4096) :
    Gout V c (ix2 s n) = ∑ j : Fin 56, ∑ i' : Fin 256, actArr V c s (Cert.Spec.inner j i') * dArr V c (ix2 n (Cert.Spec.inner j i')) := rfl

/-- The specification's block-by-block sum at explicit coordinates. -/
theorem Gblocks_apply (x : FVec Ideal Cert.Spec.SX .f32) (w : FVec Ideal Cert.Spec.SW .f32) (Wg Wu : FVec Ideal Cert.Spec.SG .f32) (Wd : FVec Ideal Cert.Spec.SD .f32)
    (s : Fin 2048) (n : Fin 4096) :
    Cert.Spec.Gblocks x w Wg Wu Wd (ix3 0 s n)
      = ∑ j : Fin 56, ∑ i' : Fin 256, Cert.Spec.act x w Wg Wu s (Cert.Spec.inner j i') * Wd (ix2 n (Cert.Spec.inner j i')) := rfl

/-- THE KERNEL'S RESULT. -/
theorem kernel_result (c : Dev nD) :
    resultArr m ρ c = Cert.Spec.Gblocks (xArg m c) (wArg m c) (gArg m c) (uArg m c) (dArg m c) := by
  funext idx
  obtain ⟨a, s, n, rfl⟩ : ∃ (a : Fin 1) (s : Fin 2048) (n : Fin 4096), idx = ix3 a s n := ⟨idx 0, idx 1, idx 2, eq_ix3 idx⟩
  obtain rfl : a = 0 := Subsingleton.elim _ _
  rw [result_entry, outArr_eq, Gout_apply, Gblocks_apply]
  refine Finset.sum_congr rfl fun j _ => Finset.sum_congr rfl fun i' _ => ?_
  rw [act_entry, down_entry]

end Cert.KernelIdeal.Val

end
-- ==== Proof.RefValue.lean ====
/-
  The reference's result is the specification's function of the five arguments: read index by index, its last
  operation (the contraction with the down weights over the 14336 inner indices) sums the gated activation against the
  down weights, the activation is g · (1 / (1 + e^(−g))) · u — the logistic function spelt out — with g and u the
  contractions of the normalised row with the gate and up weights, and the normalised row is
  x · rsqrt(mean square + ε) · w with the mean taken by a sum and a division by 4096.
-/
import proofs.«120742_j45956150067864_1_alg».proof.Proof.Gen.ReferenceIdeal.Run
import proofs.«120742_j45956150067864_1_alg».proof.Proof.Gen.ReferenceIdeal.Read
import proofs.«120742_j45956150067864_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.ReferenceIdeal.RefValue

open Idealize.ShloMosaic Idealize.ShloMosaic.TcCoe Idealize.ShloMosaic.ValueIdx Idealize.SL.Sem
open Cert.ReferenceIdeal

/-- Row `s` of the broadcast normaliser: the zero word plus the row's sum of squares, divided by the row length, plus
    epsilon, under rsqrt — the specification's row scale. -/
theorem scale_at (x0 : (⟨S1x2048x4096, .f32⟩ : BufTy).Contents (Elt Ideal)) (s : Fin 2048) :
    Read.val_main_v7 (F := Ideal) x0 (ix3 (0 : Fin 1) s (0 : Fin 1)) = Cert.Spec.rowScale x0 s := by
  have e : ∀ k : Fin 4096, Read.idx_main_v1 (Read.idx_main_v2 (ix3 (0 : Fin 1) s (0 : Fin 1))) k = ix3 (0 : Fin 1) s k :=
    fun k => funext fun a => Fin.ext (by match a with | ⟨0, _⟩ => rfl | ⟨1, _⟩ => rfl | ⟨2, _⟩ => rfl)
  simp only [Read.val_main_v7_apply, Read.val_main_v6_apply, Read.val_main_v4_apply, Read.val_main_v2_apply,
    Read.val_main_v1_apply, Read.val_main_v3_apply, Read.val_main_v5_apply, Read.val_main_cst_0_apply,
    Read.val_main_cst_1_apply, Read.val_main_cst_apply, Read.val_main_v0_apply, e, Ideal.hostUnary_rsqrt_def,
    Ideal.addf_def, Ideal.hostDivf_def, Ideal.mulf_def, Ideal.ofBits_def, Ideal.ofBits_zero_f32, zero_add]
  rfl

/-- The normalised, weighted entry: the argument times its row's scale times the weight of its column. -/
theorem normed_at (x0 : (⟨S1x2048x4096, .f32⟩ : BufTy).Contents (Elt Ideal)) (x1 : (⟨S4096, .f32⟩ : BufTy).Contents (Elt Ideal))
    (s : Fin 2048) (k : Fin 4096) :
    Read.val_main_v12 (F := Ideal) x0 x1 (ix3 (0 : Fin 1) s k) = Cert.Spec.normed x0 x1 s k := by
  have e8 : Read.idx_main_v8 (ix3 (0 : Fin 1) s k) = ix3 (0 : Fin 1) s (0 : Fin 1) :=
    funext fun a => Fin.ext (by match a with | ⟨0, _⟩ => rfl | ⟨1, _⟩ => rfl | ⟨2, _⟩ => rfl)
  have e11 : Read.idx_main_v10 (Read.idx_main_v11 (ix3 (0 : Fin 1) s k)) = ix1 k :=
    funext fun a => Fin.ext (by match a with | ⟨0, _⟩ => rfl)
  rw [Read.val_main_v12_apply, Read.val_main_v9_apply, Read.val_main_v8_apply, Read.val_main_v11_apply,
    Read.val_main_v10_apply, e8, e11, scale_at]
  rfl

/-- The contraction of the normalised row with row `i` of the gate weights. -/
theorem gate_at (x0 : (⟨S1x2048x4096, .f32⟩ : BufTy).Contents (Elt Ideal)) (x1 : (⟨S4096, .f32⟩ : BufTy).Contents (Elt Ideal))
    (x2 : (⟨S14336x4096, .f32⟩ : BufTy).Contents (Elt Ideal)) (s : Fin 2048) (i : Fin 14336) :
    Read.val_main_v13 (F := Ideal) x0 x1 x2 (ix3 (0 : Fin 1) s i) = Cert.Spec.proj x0 x1 x2 s i := by
  rw [Read.val_main_v13_apply]
  unfold Cert.Spec.proj
  refine Finset.sum_congr rfl fun k _ => ?_
  have el : Read.lidx_main_v13 (ix3 (0 : Fin 1) s i) k = ix3 (0 : Fin 1) s k :=
    funext fun a => Fin.ext (by match a with | ⟨0, _⟩ => rfl | ⟨1, _⟩ => rfl | ⟨2, _⟩ => rfl)
  have er : Read.ridx_main_v13 (ix3 (0 : Fin 1) s i) k = ix2 i k :=
    funext fun a => Fin.ext (by match a with | ⟨0, _⟩ => rfl | ⟨1, _⟩ => rfl)
  rw [el, er, normed_at]

/-- The contraction of the normalised row with row `i` of the up weights. -/
theorem up_at (x0 : (⟨S1x2048x4096, .f32⟩ : BufTy).Contents (Elt Ideal)) (x1 : (⟨S4096, .f32⟩ : BufTy).Contents (Elt Ideal))
    (x3 : (⟨S14336x4096, .f32⟩ : BufTy).Contents (Elt Ideal)) (s : Fin 2048) (i : Fin 14336) :
    Read.val_main_v14 (F := Ideal) x0 x1 x3 (ix3 (0 : Fin 1) s i) = Cert.Spec.proj x0 x1 x3 s i := by
  rw [Read.val_main_v14_apply]
  unfold Cert.Spec.proj
  refine Finset.sum_congr rfl fun k _ => ?_
  have el : Read.lidx_main_v14 (ix3 (0 : Fin 1) s i) k = ix3 (0 : Fin 1) s k :=
    funext fun a => Fin.ext (by match a with | ⟨0, _⟩ => rfl | ⟨1, _⟩ => rfl | ⟨2, _⟩ => rfl)
  have er : Read.ridx_main_v14 (ix3 (0 : Fin 1) s i) k = ix2 i k :=
    funext fun a => Fin.ext (by match a with | ⟨0, _⟩ => rfl | ⟨1, _⟩ => rfl)
  rw [el, er, normed_at]

/-- The gated activation: with g the gate contraction and u the up contraction, g · (1 / (1 + e^(−g))) · u, and
    1 / (1 + e^(−g)) is the logistic function of g by its definition; the word of 1.0 is the extended real one. -/
theorem act_at (x0 : (⟨S1x2048x4096, .f32⟩ : BufTy).Contents (Elt Ideal)) (x1 : (⟨S4096, .f32⟩ : BufTy).Contents (Elt Ideal))
    (x2 x3 : (⟨S14336x4096, .f32⟩ : BufTy).Contents (Elt Ideal)) (s : Fin 2048) (i : Fin 14336) :
    Read.val_main_v16 (F := Ideal) x0 x1 x2 x3 (ix3 (0 : Fin 1) s i) = Cert.Spec.act x0 x1 x2 x3 s i := by
  rw [Read.val_main_v16_apply, Read.val_main_v15_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, gate_at, up_at]
  simp only [Ideal.ofBits_def, Ideal.ofBits_one_f32]
  rfl

/-- The reference's last stage is `G`. -/
theorem reference_is_G (x0 : (⟨S1x2048x4096, .f32⟩ : BufTy).Contents (Elt Ideal)) (x1 : (⟨S4096, .f32⟩ : BufTy).Contents (Elt Ideal))
    (x2 x3 : (⟨S14336x4096, .f32⟩ : BufTy).Contents (Elt Ideal)) (x4 : (⟨S4096x14336, .f32⟩ : BufTy).Contents (Elt Ideal)) :
    Cert.ReferenceIdeal.Read.val_main_v17 (F := Ideal) x0 x1 x2 x3 x4 = Cert.Spec.G x0 x1 x2 x3 x4 := by
  funext i
  obtain ⟨a, s, n, rfl⟩ : ∃ (a : Fin 1) (s : Fin 2048) (n : Fin 4096), i = ix3 a s n := ⟨i 0, i 1, i 2, eq_ix3 i⟩
  obtain rfl : a = 0 := Subsingleton.elim _ _
  rw [Read.val_main_v17_apply]
  show _ = ∑ k : Fin 14336, Cert.Spec.act x0 x1 x2 x3 s k * x4 (ix2 n k)
  refine Finset.sum_congr rfl fun k _ => ?_
  have el : Read.lidx_main_v17 (ix3 (0 : Fin 1) s n) k = ix3 (0 : Fin 1) s k :=
    funext fun a => Fin.ext (by match a with | ⟨0, _⟩ => rfl | ⟨1, _⟩ => rfl | ⟨2, _⟩ => rfl)
  have er : Read.ridx_main_v17 (ix3 (0 : Fin 1) s n) k = ix2 n k :=
    funext fun a => Fin.ext (by match a with | ⟨0, _⟩ => rfl | ⟨1, _⟩ => rfl)
  rw [el, er, act_at]

end Cert.ReferenceIdeal.RefValue

end
-- ==== Proof.lean ====
/-
  The gated projection with a fused row normalisation, computed by two pipelined kernels, against its one-piece reference.

  Both programs compute, from x : [1, 2048, 4096], w : [4096], gate and up weights : [14336, 4096] and down weights
  : [4096, 14336], the array whose entry (0, s, n) is Σ_{i < 14336} act(s, i) · Wd[n, i], where
  act(s, i) = g · logistic g · u, g and u the contractions over 4096 of the normalised row
  x[0,s,·] · rsqrt(mean square + ε) · w with row i of the gate and of the up weights. The reference contracts over the
  14336 inner indices in one piece and spells the logistic function as 1 / (1 + e^(−g)); the kernel normalises in a first
  pipelined call (4 blocks of 512 rows) and, in a second (8 row blocks × 56 inner blocks), keeps a running sum that it
  zeroes at each row block's first inner block, adds one block of 256 inner indices to at every point and copies out at the
  last. Over the extended reals addition is commutative and associative, so the 56 block sums are the one sum; every
  other operation is the same on both sides (a change of float format being the identity there), and the literal words
  agree. No finiteness of the inputs is used.

  The frames: each kernel program runs as three stretches of host operations around two pipeline regions; the first
  region's body stores one block from its two loaded blocks; the second's carries the running sum from point to point, its
  invariant naming the sum's contents after each point. The same text serves the word-level program and the idealized
  one. The reference is a straight line of host operations.
-/
import proofs.«120742_j45956150067864_1_alg».proof.Defs
import proofs.«120742_j45956150067864_1_alg».proof.Proof.Gen.Kernel
import proofs.«120742_j45956150067864_1_alg».proof.Proof.Gen.KernelIdeal
import proofs.«120742_j45956150067864_1_alg».proof.Proof.Gen.ReferenceIdeal
import proofs.«120742_j45956150067864_1_alg».proof.Proof.Gen.Pre_finite_inputs
import proofs.«120742_j45956150067864_1_alg».proof.Proof.Kernel.ProgramRun
import proofs.«120742_j45956150067864_1_alg».proof.Proof.KernelIdeal.ProgramRun
import proofs.«120742_j45956150067864_1_alg».proof.Proof.KernelIdeal.KernelValue
import proofs.«120742_j45956150067864_1_alg».proof.Proof.RefValue
import proofs.«120742_j45956150067864_1_alg».proof.Proof.Gen.ReferenceIdeal.Run
import proofs.«120742_j45956150067864_1_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Frame.frame m ρ

/-- So does the idealized one. -/
theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the idealized kernel ends at the block-by-block sum of the arguments and the reference at the
    one-piece sum of arguments that agree: one function. -/
theorem algebraic : Cert.algebraic_KernelIdeal_ReferenceIdeal := by
  intro m ρ m' ρ' _ hagree
  refine ⟨fun c => Cert.KernelIdeal.Frame.W5 m ρ c (Proc.devRef .tc Cert.KernelIdeal.main_v7), ?_, ?_⟩
  · refine (θ_run Cert.KernelIdeal.defs _ _).mono (fun r h c =>
      ⟨h c _ (Cert.KernelIdeal.Frame.mem_uc Cert.KernelIdeal.main_v7 (by decide)),
       (h c _ (Cert.KernelIdeal.Frame.mem_uc Cert.KernelIdeal.main_arg0 (by decide))).trans (Cert.KernelIdeal.Frame.W5_main_arg0 m ρ c),
       (h c _ (Cert.KernelIdeal.Frame.mem_uc Cert.KernelIdeal.main_arg1 (by decide))).trans (Cert.KernelIdeal.Frame.W5_main_arg1 m ρ c),
       (h c _ (Cert.KernelIdeal.Frame.mem_uc Cert.KernelIdeal.main_arg2 (by decide))).trans (Cert.KernelIdeal.Frame.W5_main_arg2 m ρ c),
       (h c _ (Cert.KernelIdeal.Frame.mem_uc Cert.KernelIdeal.main_arg3 (by decide))).trans (Cert.KernelIdeal.Frame.W5_main_arg3 m ρ c),
       (h c _ (Cert.KernelIdeal.Frame.mem_uc Cert.KernelIdeal.main_arg4 (by decide))).trans (Cert.KernelIdeal.Frame.W5_main_arg4 m ρ c)⟩)
      (Cert.KernelIdeal.Frame.run_all m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v17_eq _ _ _ _ _).trans
      ((Cert.ReferenceIdeal.RefValue.reference_is_G _ _ _ _ _).trans
        ((Cert.Spec.G_eq_blocks _ _ _ _ _).trans (Cert.KernelIdeal.Val.kernel_result m ρ c).symm))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
